-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x100 : Shape := ⟨2, ![64, 100]⟩
abbrev S100 : Shape := ⟨1, ![100]⟩
abbrev S5x100x100 : Shape := ⟨3, ![5, 100, 100]⟩
abbrev S5x100 : Shape := ⟨2, ![5, 100]⟩
abbrev S100x1 : Shape := ⟨2, ![100, 1]⟩
abbrev S1 : Shape := ⟨1, ![1]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x100 : S_.BroadcastsInDim S64x100 (![] : Fin 0 → Fin S64x100.rank)
  reducesTo_S64x100_S_d0_1 : S64x100.ReducesTo [0, 1] S_
  bcast_S_S100 : S_.BroadcastsInDim S100 (![] : Fin 0 → Fin S100.rank)
  reducesTo_S100_S_d0 : S100.ReducesTo [0] S_
  bcast_S_S5x100x100 : S_.BroadcastsInDim S5x100x100 (![] : Fin 0 → Fin S5x100x100.rank)
  reducesTo_S5x100x100_S_d0_1_2 : S5x100x100.ReducesTo [0, 1, 2] S_
  bcast_S_S5x100 : S_.BroadcastsInDim S5x100 (![] : Fin 0 → Fin S5x100.rank)
  reducesTo_S5x100_S_d0_1 : S5x100.ReducesTo [0, 1] S_
  bcast_S_S100x1 : S_.BroadcastsInDim S100x1 (![] : Fin 0 → Fin S100x1.rank)
  reducesTo_S100x1_S_d0_1 : S100x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S5x100 .f32) (main_arg5 : FVec F S100x1 .f32) (main_arg6 : FVec F S1 .f32) (main_v13 : IVec S_ 1) (main_v16 : IVec S5x100x100 1) : IVec S_ 1 :=
  let main_c_5 : IVec S_ 1 := constantI S_ 1 1#1
  let main_v17 : IVec S_ 1 := (fun x v => Host.reduce IntOp.andi x v reducesTo_S5x100x100_S_d0_1_2 h_S_) main_v16 main_c_5
  let main_v18 : IVec S_ 1 := andi main_v13 main_v17
  let main_v19 : FVec F S5x100 .f32 := Host.absf main_arg4
  let main_cst_6 : FVec F S_ .f32 := constant S_ .f32 0x7F800000#32
  let main_v20 : FVec F S5x100 .f32 := broadcastInDim S5x100 ![] bcast_S_S5x100 main_cst_6
  let main_v21 : IVec S5x100 1 := cmpf .olt main_v19 main_v20
  let main_c_7 : IVec S_ 1 := constantI S_ 1 1#1
  let main_v22 : IVec S_ 1 := (fun x v => Host.reduce IntOp.andi x v reducesTo_S5x100_S_d0_1 h_S_) main_v21 main_c_7
  let main_v23 : IVec S_ 1 := andi main_v18 main_v22
  let main_v24 : FVec F S100x1 .f32 := Host.absf main_arg5
  let main_cst_8 : FVec F S_ .f32 := constant S_ .f32 0x7F800000#32
  let main_v25 : FVec F S100x1 .f32 := broadcastInDim S100x1 ![] bcast_S_S100x1 main_cst_8
  let main_v26 : IVec S100x1 1 := cmpf .olt main_v24 main_v25
  let main_c_9 : IVec S_ 1 := constantI S_ 1 1#1
  let main_v27 : IVec S_ 1 := (fun x v => Host.reduce IntOp.andi x v reducesTo_S100x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1048576x64 .f32) (main_arg1 : FVec F S64x100 .f32) (main_arg2 : FVec F S100 .f32) (main_arg3 : FVec F S5x100x100 .f32) (main_arg4 : FVec F S5x100 .f32) (main_arg5 : FVec F S100x1 .f32) (main_arg6 : FVec F S1 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x100 .f32 := Host.absf main_arg1
  let main_cst_0 : FVec F S_ .f32 := constant S_ .f32 0x7F800000#32
  let main_v5 : FVec F S64x100 .f32 := broadcastInDim S64x100 ![] bcast_S_S64x100 main_cst_0
  let main_v6 : IVec S64x100 1 := cmpf .olt main_v4 main_v5
  let main_c_1 : IVec S_ 1 := constantI S_ 1 1#1
  let main_v7 : IVec S_ 1 := (fun x v => Host.reduce IntOp.andi x v reducesTo_S64x100_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S5x100x100 .f32 := Host.absf main_arg3
  let main_cst_4 : FVec F S_ .f32 := constant S_ .f32 0x7F800000#32
  let main_v15 : FVec F S5x100x100 .f32 := broadcastInDim S5x100x100 ![] bcast_S_S5x100x100 main_cst_4
  let main_v16 : IVec S5x100x100 1 := cmpf .olt main_v14 main_v15
  fn_part1 (F := F) main_arg4 main_arg5 main_arg6 main_v13 main_v16
-- ==== Kernel.lean ====
abbrev S1048576x64 : Shape := ⟨2, ![1048576, 64]⟩
abbrev S64x100 : Shape := ⟨2, ![64, 100]⟩
abbrev S100 : Shape := ⟨1, ![100]⟩
abbrev S5x100x100 : Shape := ⟨3, ![5, 100, 100]⟩
abbrev S5x100 : Shape := ⟨2, ![5, 100]⟩
abbrev S100x1 : Shape := ⟨2, ![100, 1]⟩
abbrev S1 : Shape := ⟨1, ![1]⟩
abbrev S1x100 : Shape := ⟨2, ![1, 100]⟩
abbrev S1x1 : Shape := ⟨2, ![1, 1]⟩
abbrev S1048576x1 : Shape := ⟨2, ![1048576, 1]⟩
abbrev S8192x64 : Shape := ⟨2, ![8192, 64]⟩
abbrev S8192x1 : Shape := ⟨2, ![8192, 1]⟩
abbrev S8192x100 : Shape := ⟨2, ![8192, 100]⟩
abbrev S1x100x100 : Shape := ⟨3, ![1, 100, 100]⟩
abbrev S100x100 : Shape := ⟨2, ![100, 100]⟩
abbrev S1048576 : Shape := ⟨1, ![1048576]⟩

abbrev nBuf : Space → Nat
  | .hbm => 11
  | .vmem => 10
  | .smem => 0
  | _ => 0

abbrev bufTy : (tb : Table) → Fin (tcTables nBuf tb) → BufTy
  | .hbm, ⟨0, _⟩ => ⟨S1048576x64, .f32⟩
  | .hbm, ⟨1, _⟩ => ⟨S64x100, .f32⟩
  | .hbm, ⟨2, _⟩ => ⟨S100, .f32⟩
  | .hbm, ⟨3, _⟩ => ⟨S5x100x100, .f32⟩
  | .hbm, ⟨4, _⟩ => ⟨S5x100, .f32⟩
  | .hbm, ⟨5, _⟩ => ⟨S100x1, .f32⟩
  | .hbm, ⟨6, _⟩ => ⟨S1, .f32⟩
  | .hbm, ⟨7, _⟩ => ⟨S1x100, .f32⟩
  | .hbm, ⟨8, _⟩ => ⟨S1x1, .f32⟩
  | .hbm, ⟨9, _⟩ => ⟨S1048576x1, .f32⟩
  | .hbm, ⟨10, _⟩ => ⟨S1048576, .f32⟩
  | .local _ .vmem, ⟨0, _⟩ => ⟨S8192x64, .f32⟩
  | .local _ .vmem, ⟨1, _⟩ => ⟨S8192x64, .f32⟩
  | .local _ .vmem, ⟨2, _⟩ => ⟨S64x100, .f32⟩
  | .local _ .vmem, ⟨3, _⟩ => ⟨S1x100, .f32⟩
  | .local _ .vmem, ⟨4, _⟩ => ⟨S5x100x100, .f32⟩
  | .local _ .vmem, ⟨5, _⟩ => ⟨S5x100, .f32⟩
  | .local _ .vmem, ⟨6, _⟩ => ⟨S100x1, .f32⟩
  | .local _ .vmem, ⟨7, _⟩ => ⟨S1x1, .f32⟩
  | .local _ .vmem, ⟨8, _⟩ => ⟨S8192x1, .f32⟩
  | .local _ .vmem, ⟨9, _⟩ => ⟨S8192x1, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S100_S1x100 : S100.ShapeCasts S1x100
  shapeCasts_S1_S1x1 : S1.ShapeCasts S1x1
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x100_S64x100_0_0 : ∀ a, (![0, 0] : Fin 2 → Nat) a + S64x100.size a ≤ S64x100.size a
  h_S64x100 : 0 < S64x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S8192x100 : S1x100.Broadcasts S8192x100
  inb_S5x100x100_S1x100x100_0_0_0 : ∀ a, (![0, 0, 0] : Fin 3 → Nat) a + S1x100x100.size a ≤ S5x100x100.size a
  h_S1x100x100 : 0 < S1x100x100.numel
  shapeCasts_S1x100x100_S100x100 : S1x100x100.ShapeCasts S100x100
  inb_S5x100_S1x100_0_0 : ∀ a, (![0, 0] : Fin 2 → Nat) a + S1x100.size a ≤ S5x100.size a
  shapeCasts_S1x100_S100 : S1x100.ShapeCasts S100
  inb_S5x100x100_S1x100x100_1_0_0 : ∀ a, (![1, 0, 0] : Fin 3 → Nat) a + S1x100x100.size a ≤ S5x100x100.size a
  inb_S5x100_S1x100_1_0 : ∀ a, (![1, 0] : Fin 2 → Nat) a + S1x100.size a ≤ S5x100.size a
  inb_S5x100x100_S1x100x100_2_0_0 : ∀ a, (![2, 0, 0] : Fin 3 → Nat) a + S1x100x100.size a ≤ S5x100x100.size a
  inb_S5x100_S1x100_2_0 : ∀ a, (![2, 0] : Fin 2 → Nat) a + S1x100.size a ≤ S5x100.size a
  inb_S5x100x100_S1x100x100_3_0_0 : ∀ a, (![3, 0, 0] : Fin 3 → Nat) a + S1x100x100.size a ≤ S5x100x100.size a
  inb_S5x100_S1x100_3_0 : ∀ a, (![3, 0] : Fin 2 → Nat) a + S1x100.size a ≤ S5x100.size a
  inb_S5x100x100_S1x100x100_4_0_0 : ∀ a, (![4, 0, 0] : Fin 3 → Nat) a + S1x100x100.size a ≤ S5x100x100.size a
  inb_S5x100_S1x100_4_0 : ∀ a, (![4, 0] : Fin 2 → Nat) a + S1x100.size a ≤ S5x100.size a
  inb_S100x1_S100x1_0_0 : ∀ a, (![0, 0] : Fin 2 → Nat) a + S100x1.size a ≤ S100x1.size a
  h_S100x1 : 0 < S100x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  shapeCasts_S1048576x1_S1048576 : S1048576x1.ShapeCasts S1048576
  dot_S8192x64_S64x100_S8192x100_1_0_0_1_n_n_wf : DotDims.WF S8192x64 S64x100 S8192x100 [1] [0] [0] [1] [] []
  dot_S8192x100_S100x100_S8192x100_1_0_0_1_n_n_wf : DotDims.WF S8192x100 S100x100 S8192x100 [1] [0] [0] [1] [] []
  dot_S8192x100_S100x1_S8192x1_1_0_0_1_n_n_wf : DotDims.WF S8192x100 S100x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x100.size a ≤ S64x100.size a
  hwx0_1 : ∀ i : grid0.Coords, EltTy.bits .f32 = 32 ∨ (Rect.block (s := S64x100) S64x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x100x100.size a ≤ S5x100x100.size a
  hwx0_3 : ∀ i : grid0.Coords, EltTy.bits .f32 = 32 ∨ (Rect.block (s := S5x100x100) S5x100x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x100.size a ≤ S5x100.size a
  hwx0_4 : ∀ i : grid0.Coords, EltTy.bits .f32 = 32 ∨ (Rect.block (s := S5x100) S5x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x1.size a ≤ S100x1.size a
  hwx0_5 : ∀ i : grid0.Coords, EltTy.bits .f32 = 32 ∨ (Rect.block (s := S100x1) S100x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x1.size a ≤ S1048576x1.size a
  hwx0_7 : ∀ i : grid0.Coords, EltTy.bits .f32 = 32 ∨ (Rect.block (s := S1048576x1) S8192x1.size (cc0_transform_7 i) (hinb0_7 i)).WholeWords (EltTy.packing .f32)

variable [Facts₀]

def dot_S8192x64_S64x100_S8192x100_1_0_0_1_n_n : DotDims S8192x64 S64x100 S8192x100 where
  lhsContracting := [1]
  rhsContracting := [0]
  lhsNonContracting := [0]
  rhsNonContracting := [1]
  lhsBatch := []
  rhsBatch := []
  wf := dot_S8192x64_S64x100_S8192x100_1_0_0_1_n_n_wf
def dot_S8192x100_S100x100_S8192x100_1_0_0_1_n_n : DotDims S8192x100 S100x100 S8192x100 where
  lhsContracting := [1]
  rhsContracting := [0]
  lhsNonContracting := [0]
  rhsNonContracting := [1]
  lhsBatch := []
  rhsBatch := []
  wf := dot_S8192x100_S100x100_S8192x100_1_0_0_1_n_n_wf
def dot_S8192x100_S100x1_S8192x1_1_0_0_1_n_n : DotDims S8192x100 S100x1 S8192x1 where
  lhsContracting := [1]
  rhsContracting := [0]
  lhsNonContracting := [0]
  rhsNonContracting := [1]
  lhsBatch := []
  rhsBatch := []
  wf := dot_S8192x100_S100x1_S8192x1_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S5x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S100x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S8192x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x100 : Shape := ⟨2, ![64, 100]⟩
abbrev S100 : Shape := ⟨1, ![100]⟩
abbrev S5x100x100 : Shape := ⟨3, ![5, 100, 100]⟩
abbrev S5x100 : Shape := ⟨2, ![5, 100]⟩
abbrev S100x1 : Shape := ⟨2, ![100, 1]⟩
abbrev S1 : Shape := ⟨1, ![1]⟩
abbrev S1048576x100 : Shape := ⟨2, ![1048576, 100]⟩
abbrev S1x100 : Shape := ⟨2, ![1, 100]⟩
abbrev S_ : Shape := ⟨0, ![]⟩
abbrev S1x100x100 : Shape := ⟨3, ![1, 100, 100]⟩
abbrev S100x100 : Shape := ⟨2, ![100, 100]⟩
abbrev S1048576x1 : Shape := ⟨2, ![1048576, 1]⟩
abbrev S1x1 : Shape := ⟨2, ![1, 1]⟩
abbrev S1048576 : Shape := ⟨1, ![1048576]⟩

abbrev nBuf : Space → Nat
  | .hbm => 75
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x100, .f32⟩
  | .hbm, ⟨2, _⟩ => ⟨S100, .f32⟩
  | .hbm, ⟨3, _⟩ => ⟨S5x100x100, .f32⟩
  | .hbm, ⟨4, _⟩ => ⟨S5x100, .f32⟩
  | .hbm, ⟨5, _⟩ => ⟨S100x1, .f32⟩
  | .hbm, ⟨6, _⟩ => ⟨S1, .f32⟩
  | .hbm, ⟨7, _⟩ => ⟨S1048576x100, .f32⟩
  | .hbm, ⟨8, _⟩ => ⟨S1x100, .f32⟩
  | .hbm, ⟨9, _⟩ => ⟨S1048576x100, .f32⟩
  | .hbm, ⟨10, _⟩ => ⟨S1048576x100, .f32⟩
  | .hbm, ⟨11, _⟩ => ⟨S_, .f32⟩
  | .hbm, ⟨12, _⟩ => ⟨S1048576x100, .f32⟩
  | .hbm, ⟨13, _⟩ => ⟨S1048576x100, .f32⟩
  | .hbm, ⟨14, _⟩ => ⟨S1x100x100, .f32⟩
  | .hbm, ⟨15, _⟩ => ⟨S100x100, .f32⟩
  | .hbm, ⟨16, _⟩ => ⟨S1048576x100, .f32⟩
  | .hbm, ⟨17, _⟩ => ⟨S1x100, .f32⟩
  | .hbm, ⟨18, _⟩ => ⟨S100, .f32⟩
  | .hbm, ⟨19, _⟩ => ⟨S1x100, .f32⟩
  | .hbm, ⟨20, _⟩ => ⟨S1048576x100, .f32⟩
  | .hbm, ⟨21, _⟩ => ⟨S1048576x100, .f32⟩
  | .hbm, ⟨22, _⟩ => ⟨S_, .f32⟩
  | .hbm, ⟨23, _⟩ => ⟨S1048576x100, .f32⟩
  | .hbm, ⟨24, _⟩ => ⟨S1048576x100, .f32⟩
  | .hbm, ⟨25, _⟩ => ⟨S1x100x100, .f32⟩
  | .hbm, ⟨26, _⟩ => ⟨S100x100, .f32⟩
  | .hbm, ⟨27, _⟩ => ⟨S1048576x100, .f32⟩
  | .hbm, ⟨28, _⟩ => ⟨S1x100, .f32⟩
  | .hbm, ⟨29, _⟩ => ⟨S100, .f32⟩
  | .hbm, ⟨30, _⟩ => ⟨S1x100, .f32⟩
  | .hbm, ⟨31, _⟩ => ⟨S1048576x100, .f32⟩
  | .hbm, ⟨32, _⟩ => ⟨S1048576x100, .f32⟩
  | .hbm, ⟨33, _⟩ => ⟨S_, .f32⟩
  | .hbm, ⟨34, _⟩ => ⟨S1048576x100, .f32⟩
  | .hbm, ⟨35, _⟩ => ⟨S1048576x100, .f32⟩
  | .hbm, ⟨36, _⟩ => ⟨S1x100x100, .f32⟩
  | .hbm, ⟨37, _⟩ => ⟨S100x100, .f32⟩
  | .hbm, ⟨38, _⟩ => ⟨S1048576x100, .f32⟩
  | .hbm, ⟨39, _⟩ => ⟨S1x100, .f32⟩
  | .hbm, ⟨40, _⟩ => ⟨S100, .f32⟩
  | .hbm, ⟨41, _⟩ => ⟨S1x100, .f32⟩
  | .hbm, ⟨42, _⟩ => ⟨S1048576x100, .f32⟩
  | .hbm, ⟨43, _⟩ => ⟨S1048576x100, .f32⟩
  | .hbm, ⟨44, _⟩ => ⟨S_, .f32⟩
  | .hbm, ⟨45, _⟩ => ⟨S1048576x100, .f32⟩
  | .hbm, ⟨46, _⟩ => ⟨S1048576x100, .f32⟩
  | .hbm, ⟨47, _⟩ => ⟨S1x100x100, .f32⟩
  | .hbm, ⟨48, _⟩ => ⟨S100x100, .f32⟩
  | .hbm, ⟨49, _⟩ => ⟨S1048576x100, .f32⟩
  | .hbm, ⟨50, _⟩ => ⟨S1x100, .f32⟩
  | .hbm, ⟨51, _⟩ => ⟨S100, .f32⟩
  | .hbm, ⟨52, _⟩ => ⟨S1x100, .f32⟩
  | .hbm, ⟨53, _⟩ => ⟨S1048576x100, .f32⟩
  | .hbm, ⟨54, _⟩ => ⟨S1048576x100, .f32⟩
  | .hbm, ⟨55, _⟩ => ⟨S_, .f32⟩
  | .hbm, ⟨56, _⟩ => ⟨S1048576x100, .f32⟩
  | .hbm, ⟨57, _⟩ => ⟨S1048576x100, .f32⟩
  | .hbm, ⟨58, _⟩ => ⟨S1x100x100, .f32⟩
  | .hbm, ⟨59, _⟩ => ⟨S100x100, .f32⟩
  | .hbm, ⟨60, _⟩ => ⟨S1048576x100, .f32⟩
  | .hbm, ⟨61, _⟩ => ⟨S1x100, .f32⟩
  | .hbm, ⟨62, _⟩ => ⟨S100, .f32⟩
  | .hbm, ⟨63, _⟩ => ⟨S1x100, .f32⟩
  | .hbm, ⟨64, _⟩ => ⟨S1048576x100, .f32⟩
  | .hbm, ⟨65, _⟩ => ⟨S1048576x100, .f32⟩
  | .hbm, ⟨66, _⟩ => ⟨S_, .f32⟩
  | .hbm, ⟨67, _⟩ => ⟨S1048576x100, .f32⟩
  | .hbm, ⟨68, _⟩ => ⟨S1048576x100, .f32⟩
  | .hbm, ⟨69, _⟩ => ⟨S1048576x1, .f32⟩
  | .hbm, ⟨70, _⟩ => ⟨S1x1, .f32⟩
  | .hbm, ⟨71, _⟩ => ⟨S1048576x1, .f32⟩
  | .hbm, ⟨72, _⟩ => ⟨S1048576x1, .f32⟩
  | .hbm, ⟨73, _⟩ => ⟨S1048576, .f32⟩
  | .hbm, ⟨74, _⟩ => ⟨S1048576, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call1_cst : Ref sig .tc := ⟨.hbm, 22, rfl⟩
abbrev main_call1_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call2_cst : Ref sig .tc := ⟨.hbm, 33, rfl⟩
abbrev main_call2_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call3_cst : Ref sig .tc := ⟨.hbm, 44, rfl⟩
abbrev main_call3_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call4_cst : Ref sig .tc := ⟨.hbm, 55, rfl⟩
abbrev main_call4_v0 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call5_cst : Ref sig .tc := ⟨.hbm, 66, rfl⟩
abbrev main_call5_v0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]

class Facts₀ : Prop where
  bcast_S100_S1x100_1 : S100.BroadcastsInDim S1x100 (![1] : Fin 1 → Fin S1x100.rank)
  bcast_S1x100_S1048576x100_0_1 : S1x100.BroadcastsInDim S1048576x100 (![0, 1] : Fin 2 → Fin S1048576x100.rank)
  bcast_S_S1048576x100 : S_.BroadcastsInDim S1048576x100 (![] : Fin 0 → Fin S1048576x100.rank)
  slices_S5x100x100_S1x100x100_0_0_0 : S5x100x100.Slices ![0, 0, 0] S1x100x100
  shapeCasts_S1x100x100_S100x100 : S1x100x100.ShapeCasts S100x100
  slices_S5x100_S1x100_0_0 : S5x100.Slices ![0, 0] S1x100
  shapeCasts_S1x100_S100 : S1x100.ShapeCasts S100
  slices_S5x100x100_S1x100x100_1_0_0 : S5x100x100.Slices ![1, 0, 0] S1x100x100
  slices_S5x100_S1x100_1_0 : S5x100.Slices ![1, 0] S1x100
  slices_S5x100x100_S1x100x100_2_0_0 : S5x100x100.Slices ![2, 0, 0] S1x100x100
  slices_S5x100_S1x100_2_0 : S5x100.Slices ![2, 0] S1x100
  slices_S5x100x100_S1x100x100_3_0_0 : S5x100x100.Slices ![3, 0, 0] S1x100x100
  slices_S5x100_S1x100_3_0 : S5x100.Slices ![3, 0] S1x100
  slices_S5x100x100_S1x100x100_4_0_0 : S5x100x100.Slices ![4, 0, 0] S1x100x100
  slices_S5x100_S1x100_4_0 : S5x100.Slices ![4, 0] S1x100
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S1048576x1_S1048576 : S1048576x1.ShapeCasts S1048576
  dot_S1048576x64_S64x100_S1048576x100_1_0_0_1_n_n_wf : DotDims.WF S1048576x64 S64x100 S1048576x100 [1] [0] [0] [1] [] []
  dot_S1048576x100_S100x100_S1048576x100_1_0_0_1_n_n_wf : DotDims.WF S1048576x100 S100x100 S1048576x100 [1] [0] [0] [1] [] []
  dot_S1048576x100_S100x1_S1048576x1_1_0_0_1_n_n_wf : DotDims.WF S1048576x100 S100x1 S1048576x1 [1] [0] [0] [1] [] []

variable [Facts₀]

def dot_S1048576x64_S64x100_S1048576x100_1_0_0_1_n_n : DotDims S1048576x64 S64x100 S1048576x100 where
  lhsContracting := [1]
  rhsContracting := [0]
  lhsNonContracting := [0]
  rhsNonContracting := [1]
  lhsBatch := []
  rhsBatch := []
  wf := dot_S1048576x64_S64x100_S1048576x100_1_0_0_1_n_n_wf
def dot_S1048576x100_S100x100_S1048576x100_1_0_0_1_n_n : DotDims S1048576x100 S100x100 S1048576x100 where
  lhsContracting := [1]
  rhsContracting := [0]
  lhsNonContracting := [0]
  rhsNonContracting := [1]
  lhsBatch := []
  rhsBatch := []
  wf := dot_S1048576x100_S100x100_S1048576x100_1_0_0_1_n_n_wf
def dot_S1048576x100_S100x1_S1048576x1_1_0_0_1_n_n : DotDims S1048576x100 S100x1 S1048576x1 where
  lhsContracting := [1]
  rhsContracting := [0]
  lhsNonContracting := [0]
  rhsNonContracting := [1]
  lhsBatch := []
  rhsBatch := []
  wf := dot_S1048576x100_S100x1_S1048576x1_1_0_0_1_n_n_wf

class Facts : Prop extends Facts₀ where

variable [Facts]
-- ==== Proof.MlpSpec.lean ====
/-
  The function both programs compute, one input row at a time.

  A dense layer takes a row `h` (K numbers), a K × J weight matrix `W` and a bias `b` (J numbers) to the row
  `j ↦ max (∑ k, h k · W k j + b j) 0`; the network is six such layers (64 → 100, then five times 100 → 100) followed by
  the head `|∑ k, h k · w k + c|`, written `max s (-s)` as the extended reals' absolute value is. Output row `r` depends on
  input row `r` alone, which is why a block of rows of the kernel's and a row of the reference's can be compared here,
  with no array in sight. The zero the layers clamp at is kept as the f32 word both programs carry; it is never evaluated.
-/
import Idealize.ShloMosaic.PureOps.Ideal
import Idealize.ShloMosaic.Lib.ValueIdx

noncomputable section

open scoped BigOperators

namespace Cert.Mlp

open Idealize.ShloMosaic Idealize.ShloMosaic.ValueIdx

/-- The f32 zero word read as an extended real. -/
abbrev zeroWord : EReal := Ideal.ofBits .f32 0x00000000#32

/-- One dense layer with its clamp at zero, on one row. -/
def dense {K J : ℕ} (h : Fin K → EReal) (W : Fin K → Fin J → EReal) (b : Fin J → EReal) : Fin J → EReal :=
  fun j => max ((∑ k : Fin K, h k * W k j) + b j) zeroWord

/-- The head: one output number per row, its absolute value taken. -/
def head {K : ℕ} (h : Fin K → EReal) (w : Fin K → EReal) (c : EReal) : EReal :=
  max ((∑ k : Fin K, h k * w k) + c) (-((∑ k : Fin K, h k * w k) + c))

/-- The whole network on one row. -/
def mlpRow (x : Fin 64 → EReal) (Win : Fin 64 → Fin 100 → EReal) (bin : Fin 100 → EReal)
    (Whid : Fin 5 → Fin 100 → Fin 100 → EReal) (bhid : Fin 5 → Fin 100 → EReal)
    (wout : Fin 100 → EReal) (bout : EReal) : EReal :=
  head (dense (dense (dense (dense (dense (dense x Win bin) (Whid 0) (bhid 0)) (Whid 1) (bhid 1)) (Whid 2) (bhid 2))
    (Whid 3) (bhid 3)) (Whid 4) (bhid 4)) wout bout

/-- The network on the whole arrays: entry `r` of the result is the network on row `r` of `x`. -/
def mlpOut (x : (⟨2, ![1048576, 64]⟩ : Shape).Idx → EReal) (Win : (⟨2, ![64, 100]⟩ : Shape).Idx → EReal)
    (bin : (⟨1, ![100]⟩ : Shape).Idx → EReal) (Whid : (⟨3, ![5, 100, 100]⟩ : Shape).Idx → EReal)
    (bhid : (⟨2, ![5, 100]⟩ : Shape).Idx → EReal) (Wout : (⟨2, ![100, 1]⟩ : Shape).Idx → EReal)
    (bout : (⟨1, ![1]⟩ : Shape).Idx → EReal) : (⟨1, ![1048576]⟩ : Shape).Idx → EReal :=
  fun i => mlpRow (fun k => x (ix2 (⟨(i 0).val, (i 0).isLt⟩ : Fin 1048576) k)) (fun k j => Win (ix2 k j)) (fun j => bin (ix1 j))
    (fun l k j => Whid (ix3 l k j)) (fun l j => bhid (ix2 l j)) (fun k => Wout (ix2 k (0 : Fin 1))) (bout (ix1 (0 : Fin 1)))

theorem mlpOut_apply (x : (⟨2, ![1048576, 64]⟩ : Shape).Idx → EReal) (Win : (⟨2, ![64, 100]⟩ : Shape).Idx → EReal)
    (bin : (⟨1, ![100]⟩ : Shape).Idx → EReal) (Whid : (⟨3, ![5, 100, 100]⟩ : Shape).Idx → EReal)
    (bhid : (⟨2, ![5, 100]⟩ : Shape).Idx → EReal) (Wout : (⟨2, ![100, 1]⟩ : Shape).Idx → EReal)
    (bout : (⟨1, ![1]⟩ : Shape).Idx → EReal) (r : Fin 1048576) :
    mlpOut x Win bin Whid bhid Wout bout (ix1 r)
      = mlpRow (fun k => x (ix2 r k)) (fun k j => Win (ix2 k j)) (fun j => bin (ix1 j))
          (fun l k j => Whid (ix3 l k j)) (fun l j => bhid (ix2 l j)) (fun k => Wout (ix2 k (0 : Fin 1))) (bout (ix1 (0 : Fin 1))) := rfl

end Cert.Mlp

end
-- ==== Proof.KernelRow.lean ====
/-
  One row of the kernel's output block.

  The body's single store writes, into row `p` of the [8192, 1] output block, the network of MlpSpec applied to row `p` of the
  input block: each `tpu.matmul` into a zero accumulator is the plain sum over the contracted axis, each narrowing to bf16 is
  the identity on extended reals, a bias row broadcast over the rows reads its column, and the layers' weights are the
  planes of the stacked weight block read through their rectangles.
-/
import proofs.«125592_j26860725469574_1_alg».proof.Proof.Gen.KernelIdeal.Frame
import proofs.«125592_j26860725469574_1_alg».proof.Proof.MlpSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Mlp

/-! ## The three matrix products at an entry

For each product: the left operand's index has the output's row on axis 0 and the contraction's coordinate on axis 1, the
right operand's the contraction's coordinate on axis 0 and the output's column on axis 1; the sum over the one-axis
contraction index is then the sum over its coordinate. -/

theorem lhs_mm0_0 (i : S8192x100.Idx) (q : dot_S8192x64_S64x100_S8192x100_1_0_0_1_n_n.contr.Idx) :
    (dot_S8192x64_S64x100_S8192x100_1_0_0_1_n_n.lhsIdx i q 0).val = (i 0).val := by
  unfold DotDims.lhsIdx
  rw [dif_neg (show ¬(0 : Fin S8192x64.rank) ∈ dot_S8192x64_S64x100_S8192x100_1_0_0_1_n_n.lhsBatch by decide), dif_pos (show (0 : Fin S8192x64.rank) ∈ dot_S8192x64_S64x100_S8192x100_1_0_0_1_n_n.lhsNonContracting by decide)]
  rfl
theorem lhs_mm0_1 (i : S8192x100.Idx) (q : dot_S8192x64_S64x100_S8192x100_1_0_0_1_n_n.contr.Idx) :
    (dot_S8192x64_S64x100_S8192x100_1_0_0_1_n_n.lhsIdx i q 1).val = (q ⟨0, by decide⟩).val :=
  dot_S8192x64_S64x100_S8192x100_1_0_0_1_n_n.lhsIdx_val_of_single rfl i q
theorem rhs_mm0_0 (i : S8192x100.Idx) (q : dot_S8192x64_S64x100_S8192x100_1_0_0_1_n_n.contr.Idx) :
    (dot_S8192x64_S64x100_S8192x100_1_0_0_1_n_n.rhsIdx i q 0).val = (q ⟨0, by decide⟩).val :=
  dot_S8192x64_S64x100_S8192x100_1_0_0_1_n_n.rhsIdx_val_of_single rfl i q
theorem rhs_mm0_1 (i : S8192x100.Idx) (q : dot_S8192x64_S64x100_S8192x100_1_0_0_1_n_n.contr.Idx) :
    (dot_S8192x64_S64x100_S8192x100_1_0_0_1_n_n.rhsIdx i q 1).val = (i 1).val := by
  unfold DotDims.rhsIdx
  rw [dif_neg (show ¬(1 : Fin S64x100.rank) ∈ dot_S8192x64_S64x100_S8192x100_1_0_0_1_n_n.rhsBatch by decide), dif_pos (show (1 : Fin S64x100.rank) ∈ dot_S8192x64_S64x100_S8192x100_1_0_0_1_n_n.rhsNonContracting by decide)]
  rfl

/-- The matrix product into a zero accumulator, read at an entry, is the sum over the contracted axis. -/
theorem mm0 {φ₁ φ₂ : FTy} (l : FVec Ideal S8192x64 φ₁) (r : FVec Ideal S64x100 φ₂) (p : Fin 8192) (j : Fin 100) :
    matmul dot_S8192x64_S64x100_S8192x100_1_0_0_1_n_n none l r (constant (F := Ideal) S8192x100 .f32 0x00000000#32) (ix2 p j)
      = ∑ k : Fin 64, l (ix2 p k) * r (ix2 k j) := by
  show FloatOps.matmul dot_S8192x64_S64x100_S8192x100_1_0_0_1_n_n none l r (constant (F := Ideal) S8192x100 .f32 0x00000000#32) (ix2 p j) = _
  rw [Ideal.matmul_constant_zero_apply, ← Equiv.sum_comp (ValueIdx.contrEquiv1 dot_S8192x64_S64x100_S8192x100_1_0_0_1_n_n 64 rfl rfl).symm]
  refine Finset.sum_congr rfl fun k _ => ?_
  have hk := ValueIdx.contrEquiv1_symm_val dot_S8192x64_S64x100_S8192x100_1_0_0_1_n_n 64 rfl rfl k
  have el : dot_S8192x64_S64x100_S8192x100_1_0_0_1_n_n.lhsIdx (ix2 p j) ((ValueIdx.contrEquiv1 dot_S8192x64_S64x100_S8192x100_1_0_0_1_n_n 64 rfl rfl).symm k) = ix2 p k := funext fun a => Fin.ext (by
    match a with
    | ⟨0, _⟩ => exact lhs_mm0_0 _ _
    | ⟨1, _⟩ => exact (lhs_mm0_1 _ _).trans hk)
  have er : dot_S8192x64_S64x100_S8192x100_1_0_0_1_n_n.rhsIdx (ix2 p j) ((ValueIdx.contrEquiv1 dot_S8192x64_S64x100_S8192x100_1_0_0_1_n_n 64 rfl rfl).symm k) = ix2 k j := funext fun a => Fin.ext (by
    match a with
    | ⟨0, _⟩ => exact (rhs_mm0_0 _ _).trans hk
    | ⟨1, _⟩ => exact rhs_mm0_1 _ _)
  rw [el, er]

theorem lhs_mm1_0 (i : S8192x100.Idx) (q : dot_S8192x100_S100x100_S8192x100_1_0_0_1_n_n.contr.Idx) :
    (dot_S8192x100_S100x100_S8192x100_1_0_0_1_n_n.lhsIdx i q 0).val = (i 0).val := by
  unfold DotDims.lhsIdx
  rw [dif_neg (show ¬(0 : Fin S8192x100.rank) ∈ dot_S8192x100_S100x100_S8192x100_1_0_0_1_n_n.lhsBatch by decide), dif_pos (show (0 : Fin S8192x100.rank) ∈ dot_S8192x100_S100x100_S8192x100_1_0_0_1_n_n.lhsNonContracting by decide)]
  rfl
theorem lhs_mm1_1 (i : S8192x100.Idx) (q : dot_S8192x100_S100x100_S8192x100_1_0_0_1_n_n.contr.Idx) :
    (dot_S8192x100_S100x100_S8192x100_1_0_0_1_n_n.lhsIdx i q 1).val = (q ⟨0, by decide⟩).val :=
  dot_S8192x100_S100x100_S8192x100_1_0_0_1_n_n.lhsIdx_val_of_single rfl i q
theorem rhs_mm1_0 (i : S8192x100.Idx) (q : dot_S8192x100_S100x100_S8192x100_1_0_0_1_n_n.contr.Idx) :
    (dot_S8192x100_S100x100_S8192x100_1_0_0_1_n_n.rhsIdx i q 0).val = (q ⟨0, by decide⟩).val :=
  dot_S8192x100_S100x100_S8192x100_1_0_0_1_n_n.rhsIdx_val_of_single rfl i q
theorem rhs_mm1_1 (i : S8192x100.Idx) (q : dot_S8192x100_S100x100_S8192x100_1_0_0_1_n_n.contr.Idx) :
    (dot_S8192x100_S100x100_S8192x100_1_0_0_1_n_n.rhsIdx i q 1).val = (i 1).val := by
  unfold DotDims.rhsIdx
  rw [dif_neg (show ¬(1 : Fin S100x100.rank) ∈ dot_S8192x100_S100x100_S8192x100_1_0_0_1_n_n.rhsBatch by decide), dif_pos (show (1 : Fin S100x100.rank) ∈ dot_S8192x100_S100x100_S8192x100_1_0_0_1_n_n.rhsNonContracting by decide)]
  rfl

/-- The matrix product into a zero accumulator, read at an entry, is the sum over the contracted axis. -/
theorem mm1 {φ₁ φ₂ : FTy} (l : FVec Ideal S8192x100 φ₁) (r : FVec Ideal S100x100 φ₂) (p : Fin 8192) (j : Fin 100) :
    matmul dot_S8192x100_S100x100_S8192x100_1_0_0_1_n_n none l r (constant (F := Ideal) S8192x100 .f32 0x00000000#32) (ix2 p j)
      = ∑ k : Fin 100, l (ix2 p k) * r (ix2 k j) := by
  show FloatOps.matmul dot_S8192x100_S100x100_S8192x100_1_0_0_1_n_n none l r (constant (F := Ideal) S8192x100 .f32 0x00000000#32) (ix2 p j) = _
  rw [Ideal.matmul_constant_zero_apply, ← Equiv.sum_comp (ValueIdx.contrEquiv1 dot_S8192x100_S100x100_S8192x100_1_0_0_1_n_n 100 rfl rfl).symm]
  refine Finset.sum_congr rfl fun k _ => ?_
  have hk := ValueIdx.contrEquiv1_symm_val dot_S8192x100_S100x100_S8192x100_1_0_0_1_n_n 100 rfl rfl k
  have el : dot_S8192x100_S100x100_S8192x100_1_0_0_1_n_n.lhsIdx (ix2 p j) ((ValueIdx.contrEquiv1 dot_S8192x100_S100x100_S8192x100_1_0_0_1_n_n 100 rfl rfl).symm k) = ix2 p k := funext fun a => Fin.ext (by
    match a with
    | ⟨0, _⟩ => exact lhs_mm1_0 _ _
    | ⟨1, _⟩ => exact (lhs_mm1_1 _ _).trans hk)
  have er : dot_S8192x100_S100x100_S8192x100_1_0_0_1_n_n.rhsIdx (ix2 p j) ((ValueIdx.contrEquiv1 dot_S8192x100_S100x100_S8192x100_1_0_0_1_n_n 100 rfl rfl).symm k) = ix2 k j := funext fun a => Fin.ext (by
    match a with
    | ⟨0, _⟩ => exact (rhs_mm1_0 _ _).trans hk
    | ⟨1, _⟩ => exact rhs_mm1_1 _ _)
  rw [el, er]

theorem lhs_mm2_0 (i : S8192x1.Idx) (q : dot_S8192x100_S100x1_S8192x1_1_0_0_1_n_n.contr.Idx) :
    (dot_S8192x100_S100x1_S8192x1_1_0_0_1_n_n.lhsIdx i q 0).val = (i 0).val := by
  unfold DotDims.lhsIdx
  rw [dif_neg (show ¬(0 : Fin S8192x100.rank) ∈ dot_S8192x100_S100x1_S8192x1_1_0_0_1_n_n.lhsBatch by decide), dif_pos (show (0 : Fin S8192x100.rank) ∈ dot_S8192x100_S100x1_S8192x1_1_0_0_1_n_n.lhsNonContracting by decide)]
  rfl
theorem lhs_mm2_1 (i : S8192x1.Idx) (q : dot_S8192x100_S100x1_S8192x1_1_0_0_1_n_n.contr.Idx) :
    (dot_S8192x100_S100x1_S8192x1_1_0_0_1_n_n.lhsIdx i q 1).val = (q ⟨0, by decide⟩).val :=
  dot_S8192x100_S100x1_S8192x1_1_0_0_1_n_n.lhsIdx_val_of_single rfl i q
theorem rhs_mm2_0 (i : S8192x1.Idx) (q : dot_S8192x100_S100x1_S8192x1_1_0_0_1_n_n.contr.Idx) :
    (dot_S8192x100_S100x1_S8192x1_1_0_0_1_n_n.rhsIdx i q 0).val = (q ⟨0, by decide⟩).val :=
  dot_S8192x100_S100x1_S8192x1_1_0_0_1_n_n.rhsIdx_val_of_single rfl i q
theorem rhs_mm2_1 (i : S8192x1.Idx) (q : dot_S8192x100_S100x1_S8192x1_1_0_0_1_n_n.contr.Idx) :
    (dot_S8192x100_S100x1_S8192x1_1_0_0_1_n_n.rhsIdx i q 1).val = (i 1).val := by
  unfold DotDims.rhsIdx
  rw [dif_neg (show ¬(1 : Fin S100x1.rank) ∈ dot_S8192x100_S100x1_S8192x1_1_0_0_1_n_n.rhsBatch by decide), dif_pos (show (1 : Fin S100x1.rank) ∈ dot_S8192x100_S100x1_S8192x1_1_0_0_1_n_n.rhsNonContracting by decide)]
  rfl

/-- The matrix product into a zero accumulator, read at an entry, is the sum over the contracted axis. -/
theorem mm2 {φ₁ φ₂ : FTy} (l : FVec Ideal S8192x100 φ₁) (r : FVec Ideal S100x1 φ₂) (p : Fin 8192) (j : Fin 1) :
    matmul dot_S8192x100_S100x1_S8192x1_1_0_0_1_n_n none l r (constant (F := Ideal) S8192x1 .f32 0x00000000#32) (ix2 p j)
      = ∑ k : Fin 100, l (ix2 p k) * r (ix2 k j) := by
  show FloatOps.matmul dot_S8192x100_S100x1_S8192x1_1_0_0_1_n_n none l r (constant (F := Ideal) S8192x1 .f32 0x00000000#32) (ix2 p j) = _
  rw [Ideal.matmul_constant_zero_apply, ← Equiv.sum_comp (ValueIdx.contrEquiv1 dot_S8192x100_S100x1_S8192x1_1_0_0_1_n_n 100 rfl rfl).symm]
  refine Finset.sum_congr rfl fun k _ => ?_
  have hk := ValueIdx.contrEquiv1_symm_val dot_S8192x100_S100x1_S8192x1_1_0_0_1_n_n 100 rfl rfl k
  have el : dot_S8192x100_S100x1_S8192x1_1_0_0_1_n_n.lhsIdx (ix2 p j) ((ValueIdx.contrEquiv1 dot_S8192x100_S100x1_S8192x1_1_0_0_1_n_n 100 rfl rfl).symm k) = ix2 p k := funext fun a => Fin.ext (by
    match a with
    | ⟨0, _⟩ => exact lhs_mm2_0 _ _
    | ⟨1, _⟩ => exact (lhs_mm2_1 _ _).trans hk)
  have er : dot_S8192x100_S100x1_S8192x1_1_0_0_1_n_n.rhsIdx (ix2 p j) ((ValueIdx.contrEquiv1 dot_S8192x100_S100x1_S8192x1_1_0_0_1_n_n 100 rfl rfl).symm k) = ix2 k j := funext fun a => Fin.ext (by
    match a with
    | ⟨0, _⟩ => exact (rhs_mm2_0 _ _).trans hk
    | ⟨1, _⟩ => exact rhs_mm2_1 _ _)
  rw [el, er]

/-! ## One layer at an entry -/
/-- A dense layer of the body whose weights are one plane of the stacked block, read at an entry. -/
theorem hidden_at (h : FVec Ideal S8192x100 .f32) (w : Vec Ideal S1x100x100 .f32) (b : Vec Ideal S1x100 .f32)
    (hb : FTy.bits .bf16 < FTy.bits .f32) (hw : S1x100x100.ShapeCasts S100x100) (h1 : S1x100.ShapeCasts S100)
    (h2 : S100.ShapeCasts S1x100) (hbr : S1x100.Broadcasts S8192x100) (p : Fin 8192) (j : Fin 100) :
    maximumf (addf (matmul dot_S8192x100_S100x100_S8192x100_1_0_0_1_n_n none (truncf .bf16 h hb)
        (truncf .bf16 (shapeCast S100x100 w hw) hb) (constant (F := Ideal) S8192x100 .f32 0x00000000#32))
        (broadcastTo S8192x100 (shapeCast S1x100 (shapeCast S100 b h1) h2) hbr))
      (broadcast S8192x100 (Scalar.ofBits (F := Ideal) .f32 0x00000000#32)) (ix2 p j)
      = dense (fun k => h (ix2 p k)) (fun k j => w (ix3 (0 : Fin 1) k j)) (fun j => b (ix2 (0 : Fin 1) j)) j := by
  rw [maximumf_apply, addf_apply, mm1, broadcastTo_1b_ab_apply, shapeCast_a_1a_apply, shapeCast_1a_a_apply]
  unfold dense
  refine congrArg₂ max (congrArg₂ (· + ·) (Finset.sum_congr rfl fun k _ => ?_) rfl) rfl
  rw [truncf_apply, truncf_apply, shapeCast_1ab_ab_apply]

/-- The first dense layer of the body, read at an entry. -/
theorem first_at (x : Vec Ideal S8192x64 .f32) (w : Vec Ideal S64x100 .f32) (b : Vec Ideal S1x100 .f32)
    (hb : FTy.bits .bf16 < FTy.bits .f32) (h1 : S1x100.ShapeCasts S1x100) (hbr : S1x100.Broadcasts S8192x100)
    (p : Fin 8192) (j : Fin 100) :
    maximumf (addf (matmul dot_S8192x64_S64x100_S8192x100_1_0_0_1_n_n none (truncf .bf16 x hb)
        (truncf .bf16 w hb) (constant (F := Ideal) S8192x100 .f32 0x00000000#32))
        (broadcastTo S8192x100 (shapeCast S1x100 b h1) hbr))
      (broadcast S8192x100 (Scalar.ofBits (F := Ideal) .f32 0x00000000#32)) (ix2 p j)
      = dense (fun k => x (ix2 p k)) (fun k j => w (ix2 k j)) (fun j => b (ix2 (0 : Fin 1) j)) j := by
  rw [maximumf_apply, addf_apply, mm0, broadcastTo_1b_ab_apply, shapeCast_self]
  rfl

/-- The head of the body, read at an entry. -/
theorem head_at (h : FVec Ideal S8192x100 .bf16) (w : FVec Ideal S100x1 .bf16) (c : Vec Ideal S1x1 .f32)
    (h1 : S1x1.ShapeCasts S1x1) (hbr : S1x1.Broadcasts S8192x1) (p : Fin 8192) (q : Fin 1) :
    absf (addf (matmul dot_S8192x100_S100x1_S8192x1_1_0_0_1_n_n none h w (constant (F := Ideal) S8192x1 .f32 0x00000000#32))
        (broadcastTo S8192x1 (shapeCast S1x1 c h1) hbr)) (ix2 p q)
      = head (fun k => h (ix2 p k)) (fun k => w (ix2 k (0 : Fin 1))) (c (ix2 (0 : Fin 1) (0 : Fin 1))) := by
  obtain rfl : q = 0 := Subsingleton.elim _ _
  show max (addf _ _ (ix2 p 0)) (-(addf _ _ (ix2 p 0))) = _
  rw [addf_apply, mm2, broadcastTo_1b_ab_apply, shapeCast_self]
  rfl

/-! ## The payloads on a row, and the planes and rows of the stacked blocks -/
/-- A hidden layer of the body on a whole row. -/
theorem hidden_row (h : FVec Ideal S8192x100 .f32) (w : Vec Ideal S1x100x100 .f32) (b : Vec Ideal S1x100 .f32)
    (hb : FTy.bits .bf16 < FTy.bits .f32) (hw : S1x100x100.ShapeCasts S100x100) (h1 : S1x100.ShapeCasts S100)
    (h2 : S100.ShapeCasts S1x100) (hbr : S1x100.Broadcasts S8192x100) (p : Fin 8192) :
    (fun j : Fin 100 => maximumf (addf (matmul dot_S8192x100_S100x100_S8192x100_1_0_0_1_n_n none (truncf .bf16 h hb)
        (truncf .bf16 (shapeCast S100x100 w hw) hb) (constant (F := Ideal) S8192x100 .f32 0x00000000#32))
        (broadcastTo S8192x100 (shapeCast S1x100 (shapeCast S100 b h1) h2) hbr))
      (broadcast S8192x100 (Scalar.ofBits (F := Ideal) .f32 0x00000000#32)) (ix2 p j))
      = dense (fun k => h (ix2 p k)) (fun k j => w (ix3 (0 : Fin 1) k j)) (fun j => b (ix2 (0 : Fin 1) j)) :=
  funext fun j => hidden_at h w b hb hw h1 h2 hbr p j

/-- The first layer of the body on a whole row. -/
theorem first_row (x : Vec Ideal S8192x64 .f32) (w : Vec Ideal S64x100 .f32) (b : Vec Ideal S1x100 .f32)
    (hb : FTy.bits .bf16 < FTy.bits .f32) (h1 : S1x100.ShapeCasts S1x100) (hbr : S1x100.Broadcasts S8192x100)
    (p : Fin 8192) :
    (fun j : Fin 100 => maximumf (addf (matmul dot_S8192x64_S64x100_S8192x100_1_0_0_1_n_n none (truncf .bf16 x hb)
        (truncf .bf16 w hb) (constant (F := Ideal) S8192x100 .f32 0x00000000#32))
        (broadcastTo S8192x100 (shapeCast S1x100 b h1) hbr))
      (broadcast S8192x100 (Scalar.ofBits (F := Ideal) .f32 0x00000000#32)) (ix2 p j))
      = dense (fun k => x (ix2 p k)) (fun k j => w (ix2 k j)) (fun j => b (ix2 (0 : Fin 1) j)) :=
  funext fun j => first_at x w b hb h1 hbr p j

/-- Equal rows, weights and biases give equal layers. -/
theorem dense_congr {K J : ℕ} {h h' : Fin K → EReal} {W W' : Fin K → Fin J → EReal} {b b' : Fin J → EReal}
    (eh : h = h') (eW : W = W') (eb : b = b') : dense h W b = dense h' W' b' := by
  subst eh eW eb; rfl

/-- Row `p` after the first three layers of the body. -/
theorem pay2_row (v0 : Vec Ideal S8192x64 .f32) (v2 : Vec Ideal S64x100 .f32) (v5 : Vec Ideal S1x100 .f32)
    (v11 : Vec Ideal S1x100x100 .f32) (v16 : Vec Ideal S1x100 .f32) (v23 : Vec Ideal S1x100x100 .f32)
    (v28 : Vec Ideal S1x100 .f32) (p : Fin 8192) :
    (fun j : Fin 100 => k0_pay2 (F := Ideal) v0 v2 v5 v11 v16 v23 v28 (ix2 p j))
      = dense (dense (dense (fun k => v0 (ix2 p k)) (fun k j => v2 (ix2 k j)) (fun j => v5 (ix2 (0 : Fin 1) j)))
          (fun k j => v11 (ix3 (0 : Fin 1) k j)) (fun j => v16 (ix2 (0 : Fin 1) j)))
          (fun k j => v23 (ix3 (0 : Fin 1) k j)) (fun j => v28 (ix2 (0 : Fin 1) j)) := by
  unfold k0_pay2
  refine (hidden_row _ v23 v28 _ _ _ _ _ p).trans (dense_congr ?_ rfl rfl)
  refine (hidden_row _ v11 v16 _ _ _ _ _ p).trans (dense_congr ?_ rfl rfl)
  exact first_row v0 v2 v5 _ _ _ p

/-- Row `p` after the last three hidden layers of the body. -/
theorem pay4_row (v34 : FVec Ideal S8192x100 .f32) (v35 : Vec Ideal S1x100x100 .f32) (v40 : Vec Ideal S1x100 .f32)
    (v47 : Vec Ideal S1x100x100 .f32) (v52 : Vec Ideal S1x100 .f32) (v59 : Vec Ideal S1x100x100 .f32)
    (v64 : Vec Ideal S1x100 .f32) (p : Fin 8192) :
    (fun j : Fin 100 => k0_pay4 (F := Ideal) v34 v35 v40 v47 v52 v59 v64 (ix2 p j))
      = dense (dense (dense (fun k => v34 (ix2 p k)) (fun k j => v35 (ix3 (0 : Fin 1) k j)) (fun j => v40 (ix2 (0 : Fin 1) j)))
          (fun k j => v47 (ix3 (0 : Fin 1) k j)) (fun j => v52 (ix2 (0 : Fin 1) j)))
          (fun k j => v59 (ix3 (0 : Fin 1) k j)) (fun j => v64 (ix2 (0 : Fin 1) j)) := by
  unfold k0_pay4
  refine (hidden_row _ v59 v64 _ _ _ _ _ p).trans (dense_congr ?_ rfl rfl)
  refine (hidden_row _ v47 v52 _ _ _ _ _ p).trans (dense_congr ?_ rfl rfl)
  exact hidden_row v34 v35 v40 _ _ _ _ _ p

/-- The stored value at row `p` is the head on the row its operands hold. -/
theorem pay1_at (v72 : FVec Ideal S100x1 .bf16) (v73 : FVec Ideal S8192x100 .bf16) (v75 : Vec Ideal S1x1 .f32)
    (p : Fin 8192) (q : Fin 1) :
    k0_pay1 (F := Ideal) v72 v73 v75 (ix2 p q)
      = head (fun k => v73 (ix2 p k)) (fun k => v72 (ix2 k (0 : Fin 1))) (v75 (ix2 (0 : Fin 1) (0 : Fin 1))) := by
  unfold k0_pay1
  exact head_at v73 v72 v75 _ _ p q

/-- Plane `l` of the stacked weights, read through its rectangle. -/
theorem ld_plane (x3 : Vec Ideal S5x100x100 .f32) (l : Fin 5)
    (inb : ∀ a, (![l.val, 0, 0] : Fin 3 → Nat) a + S1x100x100.size a ≤ S5x100x100.size a) :
    (fun (k j : Fin 100) => View.ld x3 (Rect.unit (s := S5x100x100) ![l.val, 0, 0] S1x100x100.size inb) (ix3 (0 : Fin 1) k j))
      = fun k j => x3 (ix3 l k j) := by
  funext k j
  refine congrArg x3 (funext fun a => Fin.ext ?_)
  match a with
  | ⟨0, _⟩ => show l.val + 1 * 0 = l.val; omega
  | ⟨1, _⟩ => show 0 + 1 * k.val = k.val; omega
  | ⟨2, _⟩ => show 0 + 1 * j.val = j.val; omega

/-- Row `l` of the stacked biases, read through its rectangle. -/
theorem ld_bias (x4 : Vec Ideal S5x100 .f32) (l : Fin 5)
    (inb : ∀ a, (![l.val, 0] : Fin 2 → Nat) a + S1x100.size a ≤ S5x100.size a) :
    (fun (j : Fin 100) => View.ld x4 (Rect.unit (s := S5x100) ![l.val, 0] S1x100.size inb) (ix2 (0 : Fin 1) j))
      = fun j => x4 (ix2 l j) := by
  funext j
  refine congrArg x4 (funext fun a => Fin.ext ?_)
  match a with
  | ⟨0, _⟩ => show l.val + 1 * 0 = l.val; omega
  | ⟨1, _⟩ => show 0 + 1 * j.val = j.val; omega

/-! ## The output block -/

/-- Row `p` of what the body leaves in the output block is the network on row `p` of the input block. -/
theorem out_row (x0 : Vec Ideal S8192x64 .f32) (x1 : Vec Ideal S64x100 .f32) (x2 : Vec Ideal S1x100 .f32)
    (x3 : Vec Ideal S5x100x100 .f32) (x4 : Vec Ideal S5x100 .f32) (x5 : Vec Ideal S100x1 .f32) (x6 : Vec Ideal S1x1 .f32)
    (p : Fin 8192) (q : Fin 1) :
    out0_7 (F := Ideal) x0 x1 x2 x3 x4 x5 x6 (ix2 p q)
      = mlpRow (fun k => x0 (ix2 p k)) (fun k j => x1 (ix2 k j)) (fun j => x2 (ix2 (0 : Fin 1) j))
          (fun l k j => x3 (ix3 l k j)) (fun l j => x4 (ix2 l j)) (fun k => x5 (ix2 k (0 : Fin 1)))
          (x6 (ix2 (0 : Fin 1) (0 : Fin 1))) := by
  have hz : (![0, 0] : Fin 2 → Nat) = fun _ => 0 := funext fun a => by fin_cases a <;> rfl
  have e0 : View.ld x0 r0_0 = x0 := View.ld_unit_zero hz _ x0
  have e1 : View.ld x1 r0_1 = x1 := View.ld_unit_zero hz _ x1
  have e2 : View.ld x2 r0_2 = x2 := View.ld_unit_zero hz _ x2
  have e13 : View.ld x5 r0_13 = x5 := View.ld_unit_zero hz _ x5
  have e14 : View.ld x6 r0_14 = x6 := View.ld_unit_zero hz _ x6
  unfold out0_7
  rw [View.canon_unit_zero hz, e0, e1, e2, e13, e14]
  refine (pay1_at _ _ _ p q).trans ?_
  unfold mlpRow
  refine congrArg (fun r => head r (fun k => x5 (ix2 k (0 : Fin 1))) (x6 (ix2 (0 : Fin 1) (0 : Fin 1)))) ?_
  refine (pay4_row _ _ _ _ _ _ _ p).trans ?_
  refine dense_congr (dense_congr (dense_congr ?_ (ld_plane x3 2 _) (ld_bias x4 2 _)) (ld_plane x3 3 _) (ld_bias x4 3 _))
    (ld_plane x3 4 _) (ld_bias x4 4 _)
  refine (pay2_row _ _ _ _ _ _ _ p).trans ?_
  exact dense_congr (dense_congr rfl (ld_plane x3 0 _) (ld_bias x4 0 _)) (ld_plane x3 1 _) (ld_bias x4 1 _)

end Cert.KernelIdeal.Row

end
-- ==== Proof.KernelValue.lean ====
/-
  The kernel's result array.

  The grid has 128 points; point `t` reads rows `8192·t … 8192·t + 8191` of `x` and every weight array whole, and writes
  rows `8192·t …` of the [1048576, 1] output. By KernelRow, row `p` of the block written at point `t` is the network on row
  `p` of the block read there, that is on row `8192·t + p` of `x`: every block is the restriction of ONE column array
  (`col`), the blocks tile the column, so the column ends holding `col`. The two bias arrays reach the kernel through a
  reshape ([100] → [1,100], [1] → [1,1]) and the column leaves through one ([1048576,1] → [1048576]); read at an index
  these only rename coordinates, and the result is MlpSpec's `mlpOut` of the argument arrays.
-/
import proofs.«125592_j26860725469574_1_alg».proof.Proof.Gen.KernelIdeal.Frame
import proofs.«125592_j26860725469574_1_alg».proof.Proof.MlpSpec
import proofs.«125592_j26860725469574_1_alg».proof.Proof.KernelRow
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Cert.Mlp

variable (m : (ℓ : Loc nD τ sig) → Buf (Elt Ideal) ℓ) (ρ : Dev nD → PrngReg)

/-! ## The arrays as the region finds them, at their literal types -/

abbrev xArr (c : Dev nD) : Vec Ideal S1048576x64 .f32 := V m c main_arg0
abbrev winArr (c : Dev nD) : Vec Ideal S64x100 .f32 := V m c main_arg1
abbrev binArr (c : Dev nD) : Vec Ideal S1x100 .f32 := V m c main_v0
abbrev whidArr (c : Dev nD) : Vec Ideal S5x100x100 .f32 := V m c main_arg3
abbrev bhidArr (c : Dev nD) : Vec Ideal S5x100 .f32 := V m c main_arg4
abbrev woutArr (c : Dev nD) : Vec Ideal S100x1 .f32 := V m c main_arg5
abbrev boutArr (c : Dev nD) : Vec Ideal S1x1 .f32 := V m c main_v1

/-- The column the kernel fills: entry `(r, 0)` is the network on row `r` of `a0`. -/
def col (a0 : Vec Ideal S1048576x64 .f32) (a1 : Vec Ideal S64x100 .f32) (a2 : Vec Ideal S1x100 .f32)
    (a3 : Vec Ideal S5x100x100 .f32) (a4 : Vec Ideal S5x100 .f32) (a5 : Vec Ideal S100x1 .f32) (a6 : Vec Ideal S1x1 .f32) :
    Vec Ideal S1048576x1 .f32 :=
  fun i => mlpRow (fun k => a0 (ix2 (⟨(i 0).val, (i 0).isLt⟩ : Fin 1048576) k)) (fun k j => a1 (ix2 k j))
    (fun j => a2 (ix2 (0 : Fin 1) j)) (fun l k j => a3 (ix3 l k j)) (fun l j => a4 (ix2 l j))
    (fun k => a5 (ix2 k (0 : Fin 1))) (a6 (ix2 (0 : Fin 1) (0 : Fin 1)))

/-! ## Which block each point reads and writes -/

/-- The printed index maps over the grid: the row windows (input 0, output 7) are at block `t`, every other window at block 0. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `p` of the block of point `t` is row `8192·t + p` of the array. -/
def rowOf (t : Fin cfg0.N) (p : Fin 8192) : Fin 1048576 :=
  ⟨t.val * 8192 + p.val, by have := t.isLt; have h : cfg0.N = 128 := N_0; have := p.isLt; omega⟩

/-- The input block of point `t`, at row `p`, is `x` at row `8192·t + p`. -/
theorem xblk_apply (c : Dev nD) (t : Fin cfg0.N) (p : Fin 8192) (k : Fin 64) :
    (iblk m c 0 t : Vec Ideal S8192x64 .f32) (ix2 p k) = xArr m c (ix2 (rowOf t p) k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 8192 + 1 * p.val = t.val * 8192 + p.val; rw [e0]; omega
  | ⟨1, _⟩ => show win0_0.index t (1 : Fin 2) * 64 + 1 * k.val = k.val; rw [e1]; omega

/-- A window at block 0 whose block is the whole array reads the array. -/
theorem wblk1 (c : Dev nD) (t : Fin cfg0.N) : (iblk m c 1 t : Vec Ideal S64x100 .f32) = winArr m c := by
  obtain ⟨-, -, -, -, e0, e1, -⟩ := idx_facts t
  funext y
  unfold iblk
  rw [View.read_apply]
  show V m c main_arg1 _ = V m c main_arg1 _
  congr 1
  funext a
  apply Fin.ext
  match a with
  | ⟨0, _⟩ => show win0_1.index t (0 : Fin 2) * 64 + 1 * (y 0).val = (y 0).val; rw [e0]; omega
  | ⟨1, _⟩ => show win0_1.index t (1 : Fin 2) * 100 + 1 * (y 1).val = (y 1).val; rw [e1]; omega
theorem wblk2 (c : Dev nD) (t : Fin cfg0.N) : (iblk m c 2 t : Vec Ideal S1x100 .f32) = binArr m c := by
  obtain ⟨-, -, -, -, -, -, e0, e1, -⟩ := idx_facts t
  funext y
  unfold iblk
  rw [View.read_apply]
  show V m c main_v0 _ = V m c main_v0 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 100 + 1 * (y 1).val = (y 1).val; rw [e1]; omega
theorem wblk3 (c : Dev nD) (t : Fin cfg0.N) : (iblk m c 3 t : Vec Ideal S5x100x100 .f32) = whidArr m c := by
  obtain ⟨-, -, -, -, -, -, -, -, e0, e1, e2, -⟩ := idx_facts t
  funext y
  unfold iblk
  rw [View.read_apply]
  show V m c main_arg3 _ = V m c main_arg3 _
  congr 1
  funext a
  apply Fin.ext
  match a with
  | ⟨0, _⟩ => show win0_3.index t (0 : Fin 3) * 5 + 1 * (y 0).val = (y 0).val; rw [e0]; omega
  | ⟨1, _⟩ => show win0_3.index t (1 : Fin 3) * 100 + 1 * (y 1).val = (y 1).val; rw [e1]; omega
  | ⟨2, _⟩ => show win0_3.index t (2 : Fin 3) * 100 + 1 * (y 2).val = (y 2).val; rw [e2]; omega
theorem wblk4 (c : Dev nD) (t : Fin cfg0.N) : (iblk m c 4 t : Vec Ideal S5x100 .f32) = bhidArr m c := by
  obtain ⟨-, -, -, -, -, -, -, -, -, -, -, e0, e1, -⟩ := idx_facts t
  funext y
  unfold iblk
  rw [View.read_apply]
  show V m c main_arg4 _ = V m c main_arg4 _
  congr 1
  funext a
  apply Fin.ext
  match a with
  | ⟨0, _⟩ => show win0_4.index t (0 : Fin 2) * 5 + 1 * (y 0).val = (y 0).val; rw [e0]; omega
  | ⟨1, _⟩ => show win0_4.index t (1 : Fin 2) * 100 + 1 * (y 1).val = (y 1).val; rw [e1]; omega
theorem wblk5 (c : Dev nD) (t : Fin cfg0.N) : (iblk m c 5 t : Vec Ideal S100x1 .f32) = woutArr m c := by
  obtain ⟨-, -, -, -, -, -, -, -, -, -, -, -, -, e0, e1, -⟩ := idx_facts t
  funext y
  unfold iblk
  rw [View.read_apply]
  show V m c main_arg5 _ = V m c main_arg5 _
  congr 1
  funext a
  apply Fin.ext
  match a with
  | ⟨0, _⟩ => show win0_5.index t (0 : Fin 2) * 100 + 1 * (y 0).val = (y 0).val; rw [e0]; omega
  | ⟨1, _⟩ => show win0_5.index t (1 : Fin 2) * 1 + 1 * (y 1).val = (y 1).val; rw [e1]; omega
theorem wblk6 (c : Dev nD) (t : Fin cfg0.N) : (iblk m c 6 t : Vec Ideal S1x1 .f32) = boutArr m c := by
  obtain ⟨-, -, -, -, -, -, -, -, -, -, -, -, -, -, -, e0, e1⟩ := idx_facts t
  funext y
  unfold iblk
  rw [View.read_apply]
  show V m c main_v1 _ = V m c main_v1 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 1 + 1 * (y 1).val = (y 1).val; rw [e1]; omega

/-! ## Every block written back is the restriction of `col` -/

/-- Row `p` of the output block of point `t` sits at row `8192·t + p` of the column. -/
theorem oblk_emb (t : Fin cfg0.N) (p : Fin 8192) (q : Fin 1) :
    ((cfg0.win 7).blk t).view.emb (ix2 p q) = (ix2 (rowOf t p) (0 : Fin 1) : S1048576x1.Idx) := by
  obtain ⟨-, -, e0, e1, -⟩ := idx_facts t
  funext a
  apply Fin.ext
  match a with
  | ⟨0, _⟩ => show win0_7.index t (0 : Fin 2) * 8192 + 1 * p.val = t.val * 8192 + p.val; rw [e0]; omega
  | ⟨1, _⟩ => show win0_7.index t (1 : Fin 2) * 1 + 1 * q.val = 0; rw [e1]; have := q.isLt; omega

/-- Row `p` of what the body leaves at point `t` is `col` at row `8192·t + p`. -/
theorem out_blk (c : Dev nD) (t : Fin cfg0.N) (p : Fin 8192) (q : Fin 1) :
    out0_7 (F := Ideal) (iblk m c 0 t) (iblk m c 1 t) (iblk m c 2 t) (iblk m c 3 t) (iblk m c 4 t) (iblk m c 5 t) (iblk m c 6 t) (ix2 p q)
      = col (xArr m c) (winArr m c) (binArr m c) (whidArr m c) (bhidArr m c) (woutArr m c) (boutArr m c) (ix2 (rowOf t p) (0 : Fin 1)) := by
  refine (Row.out_row (iblk m c 0 t) (iblk m c 1 t) (iblk m c 2 t) (iblk m c 3 t) (iblk m c 4 t) (iblk m c 5 t) (iblk m c 6 t) p q).trans ?_
  rw [wblk1, wblk2, wblk3, wblk4, wblk5, wblk6]
  show mlpRow _ _ _ _ _ _ _ = mlpRow _ _ _ _ _ _ _
  congr 1
  funext k
  exact xblk_apply m c t p k

/-- The same at any index of the block, the column read where the block's index lands. -/
theorem out_blk_at (c : Dev nD) (t : Fin cfg0.N) (y : S8192x1.Idx) :
    out0_7 (F := Ideal) (iblk m c 0 t) (iblk m c 1 t) (iblk m c 2 t) (iblk m c 3 t) (iblk m c 4 t) (iblk m c 5 t) (iblk m c 6 t) y
      = col (xArr m c) (winArr m c) (binArr m c) (whidArr m c) (bhidArr m c) (woutArr m c) (boutArr m c) (((cfg0.win 7).blk t).view.emb y) := by
  obtain ⟨p, q, rfl⟩ : ∃ (p : Fin 8192) (q : Fin 1), y = ix2 p q := ⟨y 0, y 1, eq_ix2 y⟩
  rw [oblk_emb]
  exact out_blk m c t p q

/-- What point `t` writes back is block `t` of `col` of the arrays as the region finds them. -/
theorem flushed_eq (c : Dev nD) (t : Fin cfg0.N) :
    (dats m 0 c).flushed 7 t = ((cfg0.win 7).blk t).view.read (Elt Ideal)
      (col (xArr m c) (winArr m c) (binArr m c) (whidArr m c) (bhidArr m c) (woutArr m c) (boutArr m c)) := by
  show (cfg0.win 7).cut (grid0.coords t) ((dats m 0 c).after 7 t) = _
  rw [after0_7]
  funext y
  exact out_blk_at m c t y

/-! ## The blocks tile the column -/

/-- An index of the column is in point `t`'s block iff each coordinate is in the block's range on its axis. -/
theorem mem_blk (t : Fin cfg0.N) (i : S1048576x1.Idx) :
    i ∈ ((cfg0.win 7).blk t).view.set ↔ ∀ a : Fin 2, win0_7.index t a * S8192x1.size a ≤ (i a).val ∧ (i a).val < win0_7.index t a * S8192x1.size a + S8192x1.size a := by
  show i ∈ ((View.whole main_v2).slice (win0_7.rect t)).set ↔ _
  rw [View.set_slice_whole, Rect.mem_set_unit]
  exact Iff.rfl

/-- Row `r` of the column is written by point `r / 8192`. -/
theorem cover (i : S1048576x1.Idx) : ∃ t : Fin cfg0.N, (cfg0.win 7).flush t = true ∧ i ∈ ((cfg0.win 7).blk t).view.set := by
  have hi0 : (i 0).val < 1048576 := (i 0).isLt
  have hi1 : (i 1).val < 1 := (i 1).isLt
  have hN : cfg0.N = 128 := N_0
  have ht : (i 0).val / 8192 < cfg0.N := by omega
  obtain ⟨-, -, e0, e1, -⟩ := idx_facts ⟨(i 0).val / 8192, ht⟩
  refine ⟨⟨(i 0).val / 8192, ht⟩, flush0_7 _, ?_⟩
  rw [mem_blk]
  intro a
  match a with
  | ⟨0, _⟩ =>
    show win0_7.index ⟨(i 0).val / 8192, ht⟩ (0 : Fin 2) * 8192 ≤ (i 0).val ∧ (i 0).val < win0_7.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win0_7.index ⟨(i 0).val / 8192, ht⟩ (1 : Fin 2) * 1 ≤ (i 1).val ∧ (i 1).val < win0_7.index ⟨(i 0).val / 8192, ht⟩ (1 : Fin 2) * 1 + 1
    rw [e1]; omega

/-- So the column ends holding `col` of the arrays as the region finds them. -/
theorem final (c : Dev nD) : (dats m 0 c).arrAt 7 cfg0.N
    = col (xArr m c) (winArr m c) (binArr m c) (whidArr m c) (bhidArr m c) (woutArr m c) (boutArr m c) :=
  (dats m 0 c).arrAt_eq_of_cover 7 _ (fun t _ => flushed_eq m c t) cover

/-! ## The reshapes around the region -/

/-- The [1, 100] bias the kernel reads is the argument's [100] entries, reshaped. -/
theorem binArr_eq (c : Dev nD) : binArr m c = shapeCast S1x100 (m ((c : Thread nD τ).loc main_arg2)) shapeCasts_S100_S1x100 := by
  show StableHlo.after hostOps0 (fun b => m (c, b)) (Proc.devRef .tc main_v0) = _
  after_results
  rfl
/-- The [1, 1] bias the kernel reads is the argument's one entry, reshaped. -/
theorem boutArr_eq (c : Dev nD) : boutArr m c = shapeCast S1x1 (m ((c : Thread nD τ).loc main_arg6)) shapeCasts_S1_S1x1 := by
  show StableHlo.after hostOps0 (fun b => m (c, b)) (Proc.devRef .tc main_v1) = _
  after_results
  rfl

theorem binArr_apply (c : Dev nD) (j : Fin 100) :
    binArr m c (ix2 (0 : Fin 1) j) = (m ((c : Thread nD τ).loc main_arg2) : S100.Idx → EReal) (ix1 j) := by
  rw [binArr_eq]
  exact shapeCast_apply _ shapeCasts_S100_S1x100 (ix2 (0 : Fin 1) j) (ix1 j)
    (by rw [Shape.rowMajor_val_one, Shape.rowMajor_val_two]; show j.val = 0 * 100 + j.val; omega)
theorem boutArr_apply (c : Dev nD) :
    boutArr m c (ix2 (0 : Fin 1) (0 : Fin 1)) = (m ((c : Thread nD τ).loc main_arg6) : S1.Idx → EReal) (ix1 (0 : Fin 1)) := by
  rw [boutArr_eq]
  exact shapeCast_apply _ shapeCasts_S1_S1x1 (ix2 (0 : Fin 1) (0 : Fin 1)) (ix1 (0 : Fin 1))
    (by rw [Shape.rowMajor_val_one, Shape.rowMajor_val_two]; rfl)

/-- The result buffer after the run: the column, reshaped to a vector. -/
theorem tail_eq (c : Dev nD) : Pipeline.afterTail₀ cfgs (dats m) 0 (V0 m) [hostOps1] c main_v3
    = shapeCast S1048576 ((dats m 0 c).arrAt 7 cfg0.N) shapeCasts_S1048576x1_S1048576 := by
  unfold Pipeline.afterTail₀
  show StableHlo.after hostOps1 _ (Proc.devRef .tc main_v3) = _
  after_results
  exact congrArg (fun v => shapeCast S1048576 v shapeCasts_S1048576x1_S1048576)
    (Pipeline.withArrays_arr spec0 launch0.win.arr_inj c _ _ 7)

/-- The column reshaped is the network on the whole argument arrays. -/
theorem result_eq (c : Dev nD) :
    shapeCast S1048576 (col (xArr m c) (winArr m c) (binArr m c) (whidArr m c) (bhidArr m c) (woutArr m c) (boutArr m c))
        shapeCasts_S1048576x1_S1048576
      = mlpOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  funext i
  obtain ⟨r, rfl⟩ : ∃ r : Fin 1048576, i = ix1 r := ⟨i 0, eq_ix1 i⟩
  refine (shapeCast_apply _ shapeCasts_S1048576x1_S1048576 (ix1 r) (ix2 r (0 : Fin 1))
    (by rw [Shape.rowMajor_val_one, Shape.rowMajor_val_two]; show r.val * 1 + 0 = r.val; omega)).trans ?_
  rw [mlpOut_apply]
  show mlpRow (fun k => xArr m c (ix2 r k)) (fun k j => winArr m c (ix2 k j)) (fun j => binArr m c (ix2 (0 : Fin 1) j))
      (fun l k j => whidArr m c (ix3 l k j)) (fun l j => bhidArr m c (ix2 l j)) (fun k => woutArr m c (ix2 k (0 : Fin 1)))
      (boutArr m c (ix2 (0 : Fin 1) (0 : Fin 1))) = _
  rw [boutArr_apply, funext (binArr_apply m c)]
  show mlpRow (fun k => V m c main_arg0 (ix2 r k)) (fun k j => V m c main_arg1 (ix2 k j)) _
      (fun l k j => V m c main_arg3 (ix3 l k j)) (fun l j => V m c main_arg4 (ix2 l j)) (fun k => V m c main_arg5 (ix2 k (0 : Fin 1))) _ = _
  rw [V_main_arg0, V_main_arg1, V_main_arg3, V_main_arg4, V_main_arg5]

/-! ## The run -/

/-- Every weakly fair execution of the kernel's program ends with the result buffer at the network of the argument
    arrays and the arguments unchanged. -/
theorem run : θ_run defs (onTc (τ := τ) (main (F := Ideal))) ⟨m, fun _ => 0, ρ⟩ fun r => ∀ c : Dev nD,
      r.2.mem ((c.tc : Thread nD τ).loc main_v3)
        = mlpOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c).2 main_v3 (Pipeline.mem_restRefs_of main_v3 (by decide) (by decide))).trans
          ((tail_eq m c).trans (by rw [final]; exact result_eq m c)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        (((h c).2 main_arg2 (Pipeline.mem_restRefs_of main_arg2 (by decide) (by decide))).trans (W_main_arg2 m (dats m) c)),
        ((h c).1 3).trans (((dats m 0 c).arrAt_in 3 rfl _).trans ((A_eq m c 3).trans (V_main_arg3 m c))),
        ((h c).1 4).trans (((dats m 0 c).arrAt_in 4 rfl _).trans ((A_eq m c 4).trans (V_main_arg4 m c))),
        ((h c).1 5).trans (((dats m 0 c).arrAt_in 5 rfl _).trans ((A_eq m c 5).trans (V_main_arg5 m c))),
        (((h c).2 main_arg6 (Pipeline.mem_restRefs_of main_arg6 (by decide) (by decide))).trans (W_main_arg6 m (dats m) c))⟩)
    (run_main m ρ)

end Cert.KernelIdeal.Whole

end
-- ==== Proof.RefRow.lean ====
/-
  The reference, row by row.

  Read one operation at a time, entry `r` of the reference's result is the network of MlpSpec on row `r` of `x`: each
  `dot_general` is the plain sum over the contracted axis, each bias is broadcast along the rows, each slice-and-reshape of the
  stacked weights reads one plane, `relu` is the maximum with the zero word, and the final reshape drops the unit column.
-/
import proofs.«125592_j26860725469574_1_alg».proof.Proof.Gen.ReferenceIdeal.Read
import proofs.«125592_j26860725469574_1_alg».proof.Proof.MlpSpec

noncomputable section

open scoped BigOperators

namespace Cert.ReferenceIdeal.Row

open Cert.ReferenceIdeal Cert.ReferenceIdeal.Read Idealize.ShloMosaic Idealize.ShloMosaic.ValueIdx Cert.Mlp

/-- The input layer: entry `(r, j)` of the first clamp is the dense layer on row `r` of `x`. The contraction reads row `r` of
    the left operand and column `j` of the right one; the bias is read at `j` through its two broadcasts. -/
theorem layer0 (x0 : (⟨S1048576x64, .f32⟩ : BufTy).Contents (Elt Ideal)) (x1 : (⟨S64x100, .f32⟩ : BufTy).Contents (Elt Ideal))
    (x2 : (⟨S100, .f32⟩ : BufTy).Contents (Elt Ideal)) (r : Fin 1048576) (j : Fin 100) :
    val_main_v4 (F := Ideal) x0 x1 x2 (ix2 r j)
      = dense (fun k => x0 (ix2 r k)) (fun k j => x1 (ix2 k j)) (fun j => x2 (ix1 j)) j := by
  rw [val_main_v4_apply, val_main_v3_apply, val_main_v0_apply, val_main_v2_apply, val_main_v1_apply,
    val_main_call0_v0_apply, val_main_call0_cst_apply]
  have el : ∀ k : Fin 64, lidx_main_v0 (ix2 r j) k = ix2 r k := fun k => funext fun a =>
    match a with | ⟨0, _⟩ => rfl | ⟨1, _⟩ => rfl
  have er : ∀ k : Fin 64, ridx_main_v0 (ix2 r j) k = ix2 k j := fun k => funext fun a =>
    match a with | ⟨0, _⟩ => rfl | ⟨1, _⟩ => rfl
  have eb : idx_main_v1 (idx_main_v2 (ix2 r j)) = ix1 j := funext fun a =>
    match a with | ⟨0, _⟩ => rfl
  simp only [el, er, eb]
  rfl

/-- The first hidden layer. The weight operand is plane `0` of the stack: the slice keeps the plane, and the reshape that drops
    the unit axis sends `(k, j)` to the flat position `100 k + j`, which is entry `(0, k, j)` again since `j < 100`. The bias
    is row `0` of its stack, read through a reshape and two broadcasts. -/
theorem layer1 (x0 : (⟨S1048576x64, .f32⟩ : BufTy).Contents (Elt Ideal)) (x1 : (⟨S64x100, .f32⟩ : BufTy).Contents (Elt Ideal))
    (x2 : (⟨S100, .f32⟩ : BufTy).Contents (Elt Ideal)) (x3 : (⟨S5x100x100, .f32⟩ : BufTy).Contents (Elt Ideal))
    (x4 : (⟨S5x100, .f32⟩ : BufTy).Contents (Elt Ideal)) (r : Fin 1048576) (j : Fin 100) :
    val_main_v13 (F := Ideal) x0 x1 x2 x3 x4 (ix2 r j)
      = dense (fun k => val_main_v4 (F := Ideal) x0 x1 x2 (ix2 r k)) (fun k j => x3 (ix3 (0 : Fin 5) k j))
          (fun j => x4 (ix2 (0 : Fin 5) j)) j := by
  rw [val_main_v13_apply, val_main_v12_apply, val_main_v7_apply, val_main_v11_apply, val_main_v10_apply,
    val_main_v9_apply, val_main_v8_apply, val_main_call1_v0_apply, val_main_call1_cst_apply]
  simp only [val_main_v6_apply, val_main_v5_apply]
  have el : ∀ k : Fin 100, lidx_main_v7 (ix2 r j) k = ix2 r k := fun k => funext fun a =>
    match a with | ⟨0, _⟩ => rfl | ⟨1, _⟩ => rfl
  have er : ∀ k : Fin 100, idx_main_v5 (idx_main_v6 (ridx_main_v7 (ix2 r j) k)) = ix3 (0 : Fin 5) k j :=
    fun k => funext fun a =>
      match a with
      | ⟨0, _⟩ => rfl
      | ⟨1, _⟩ => Fin.ext (by show (k.val * 100 + j.val) / 100 % 100 = k.val; omega)
      | ⟨2, _⟩ => Fin.ext (by show (k.val * 100 + j.val) % 100 = j.val; omega)
  have eb : idx_main_v8 (idx_main_v9 (idx_main_v10 (idx_main_v11 (ix2 r j)))) = ix2 (0 : Fin 5) j :=
    funext fun a =>
      match a with
      | ⟨0, _⟩ => rfl
      | ⟨1, _⟩ => Fin.ext (by show j.val % 100 = j.val; omega)
  simp only [el, er, eb]
  rfl

/-- The second hidden layer: plane `1` of the weights and row `1` of the biases, read as in the first. -/
theorem layer2 (x0 : (⟨S1048576x64, .f32⟩ : BufTy).Contents (Elt Ideal)) (x1 : (⟨S64x100, .f32⟩ : BufTy).Contents (Elt Ideal))
    (x2 : (⟨S100, .f32⟩ : BufTy).Contents (Elt Ideal)) (x3 : (⟨S5x100x100, .f32⟩ : BufTy).Contents (Elt Ideal))
    (x4 : (⟨S5x100, .f32⟩ : BufTy).Contents (Elt Ideal)) (r : Fin 1048576) (j : Fin 100) :
    val_main_v22 (F := Ideal) x0 x1 x2 x3 x4 (ix2 r j)
      = dense (fun k => val_main_v13 (F := Ideal) x0 x1 x2 x3 x4 (ix2 r k)) (fun k j => x3 (ix3 (1 : Fin 5) k j))
          (fun j => x4 (ix2 (1 : Fin 5) j)) j := by
  rw [val_main_v22_apply, val_main_v21_apply, val_main_v16_apply, val_main_v20_apply, val_main_v19_apply,
    val_main_v18_apply, val_main_v17_apply, val_main_call2_v0_apply, val_main_call2_cst_apply]
  simp only [val_main_v15_apply, val_main_v14_apply]
  have el : ∀ k : Fin 100, lidx_main_v16 (ix2 r j) k = ix2 r k := fun k => funext fun a =>
    match a with | ⟨0, _⟩ => rfl | ⟨1, _⟩ => rfl
  have er : ∀ k : Fin 100, idx_main_v14 (idx_main_v15 (ridx_main_v16 (ix2 r j) k)) = ix3 (1 : Fin 5) k j :=
    fun k => funext fun a =>
      match a with
      | ⟨0, _⟩ => rfl
      | ⟨1, _⟩ => Fin.ext (by show (k.val * 100 + j.val) / 100 % 100 = k.val; omega)
      | ⟨2, _⟩ => Fin.ext (by show (k.val * 100 + j.val) % 100 = j.val; omega)
  have eb : idx_main_v17 (idx_main_v18 (idx_main_v19 (idx_main_v20 (ix2 r j)))) = ix2 (1 : Fin 5) j :=
    funext fun a =>
      match a with
      | ⟨0, _⟩ => rfl
      | ⟨1, _⟩ => Fin.ext (by show j.val % 100 = j.val; omega)
  simp only [el, er, eb]
  rfl

/-- The third hidden layer: plane `2` and row `2`. -/
theorem layer3 (x0 : (⟨S1048576x64, .f32⟩ : BufTy).Contents (Elt Ideal)) (x1 : (⟨S64x100, .f32⟩ : BufTy).Contents (Elt Ideal))
    (x2 : (⟨S100, .f32⟩ : BufTy).Contents (Elt Ideal)) (x3 : (⟨S5x100x100, .f32⟩ : BufTy).Contents (Elt Ideal))
    (x4 : (⟨S5x100, .f32⟩ : BufTy).Contents (Elt Ideal)) (r : Fin 1048576) (j : Fin 100) :
    val_main_v31 (F := Ideal) x0 x1 x2 x3 x4 (ix2 r j)
      = dense (fun k => val_main_v22 (F := Ideal) x0 x1 x2 x3 x4 (ix2 r k)) (fun k j => x3 (ix3 (2 : Fin 5) k j))
          (fun j => x4 (ix2 (2 : Fin 5) j)) j := by
  rw [val_main_v31_apply, val_main_v30_apply, val_main_v25_apply, val_main_v29_apply, val_main_v28_apply,
    val_main_v27_apply, val_main_v26_apply, val_main_call3_v0_apply, val_main_call3_cst_apply]
  simp only [val_main_v24_apply, val_main_v23_apply]
  have el : ∀ k : Fin 100, lidx_main_v25 (ix2 r j) k = ix2 r k := fun k => funext fun a =>
    match a with | ⟨0, _⟩ => rfl | ⟨1, _⟩ => rfl
  have er : ∀ k : Fin 100, idx_main_v23 (idx_main_v24 (ridx_main_v25 (ix2 r j) k)) = ix3 (2 : Fin 5) k j :=
    fun k => funext fun a =>
      match a with
      | ⟨0, _⟩ => rfl
      | ⟨1, _⟩ => Fin.ext (by show (k.val * 100 + j.val) / 100 % 100 = k.val; omega)
      | ⟨2, _⟩ => Fin.ext (by show (k.val * 100 + j.val) % 100 = j.val; omega)
  have eb : idx_main_v26 (idx_main_v27 (idx_main_v28 (idx_main_v29 (ix2 r j)))) = ix2 (2 : Fin 5) j :=
    funext fun a =>
      match a with
      | ⟨0, _⟩ => rfl
      | ⟨1, _⟩ => Fin.ext (by show j.val % 100 = j.val; omega)
  simp only [el, er, eb]
  rfl

/-- The fourth hidden layer: plane `3` and row `3`. -/
theorem layer4 (x0 : (⟨S1048576x64, .f32⟩ : BufTy).Contents (Elt Ideal)) (x1 : (⟨S64x100, .f32⟩ : BufTy).Contents (Elt Ideal))
    (x2 : (⟨S100, .f32⟩ : BufTy).Contents (Elt Ideal)) (x3 : (⟨S5x100x100, .f32⟩ : BufTy).Contents (Elt Ideal))
    (x4 : (⟨S5x100, .f32⟩ : BufTy).Contents (Elt Ideal)) (r : Fin 1048576) (j : Fin 100) :
    val_main_v40 (F := Ideal) x0 x1 x2 x3 x4 (ix2 r j)
      = dense (fun k => val_main_v31 (F := Ideal) x0 x1 x2 x3 x4 (ix2 r k)) (fun k j => x3 (ix3 (3 : Fin 5) k j))
          (fun j => x4 (ix2 (3 : Fin 5) j)) j := by
  rw [val_main_v40_apply, val_main_v39_apply, val_main_v34_apply, val_main_v38_apply, val_main_v37_apply,
    val_main_v36_apply, val_main_v35_apply, val_main_call4_v0_apply, val_main_call4_cst_apply]
  simp only [val_main_v33_apply, val_main_v32_apply]
  have el : ∀ k : Fin 100, lidx_main_v34 (ix2 r j) k = ix2 r k := fun k => funext fun a =>
    match a with | ⟨0, _⟩ => rfl | ⟨1, _⟩ => rfl
  have er : ∀ k : Fin 100, idx_main_v32 (idx_main_v33 (ridx_main_v34 (ix2 r j) k)) = ix3 (3 : Fin 5) k j :=
    fun k => funext fun a =>
      match a with
      | ⟨0, _⟩ => rfl
      | ⟨1, _⟩ => Fin.ext (by show (k.val * 100 + j.val) / 100 % 100 = k.val; omega)
      | ⟨2, _⟩ => Fin.ext (by show (k.val * 100 + j.val) % 100 = j.val; omega)
  have eb : idx_main_v35 (idx_main_v36 (idx_main_v37 (idx_main_v38 (ix2 r j)))) = ix2 (3 : Fin 5) j :=
    funext fun a =>
      match a with
      | ⟨0, _⟩ => rfl
      | ⟨1, _⟩ => Fin.ext (by show j.val % 100 = j.val; omega)
  simp only [el, er, eb]
  rfl

/-- The fifth hidden layer: plane `4` and row `4`. -/
theorem layer5 (x0 : (⟨S1048576x64, .f32⟩ : BufTy).Contents (Elt Ideal)) (x1 : (⟨S64x100, .f32⟩ : BufTy).Contents (Elt Ideal))
    (x2 : (⟨S100, .f32⟩ : BufTy).Contents (Elt Ideal)) (x3 : (⟨S5x100x100, .f32⟩ : BufTy).Contents (Elt Ideal))
    (x4 : (⟨S5x100, .f32⟩ : BufTy).Contents (Elt Ideal)) (r : Fin 1048576) (j : Fin 100) :
    val_main_v49 (F := Ideal) x0 x1 x2 x3 x4 (ix2 r j)
      = dense (fun k => val_main_v40 (F := Ideal) x0 x1 x2 x3 x4 (ix2 r k)) (fun k j => x3 (ix3 (4 : Fin 5) k j))
          (fun j => x4 (ix2 (4 : Fin 5) j)) j := by
  rw [val_main_v49_apply, val_main_v48_apply, val_main_v43_apply, val_main_v47_apply, val_main_v46_apply,
    val_main_v45_apply, val_main_v44_apply, val_main_call5_v0_apply, val_main_call5_cst_apply]
  simp only [val_main_v42_apply, val_main_v41_apply]
  have el : ∀ k : Fin 100, lidx_main_v43 (ix2 r j) k = ix2 r k := fun k => funext fun a =>
    match a with | ⟨0, _⟩ => rfl | ⟨1, _⟩ => rfl
  have er : ∀ k : Fin 100, idx_main_v41 (idx_main_v42 (ridx_main_v43 (ix2 r j) k)) = ix3 (4 : Fin 5) k j :=
    fun k => funext fun a =>
      match a with
      | ⟨0, _⟩ => rfl
      | ⟨1, _⟩ => Fin.ext (by show (k.val * 100 + j.val) / 100 % 100 = k.val; omega)
      | ⟨2, _⟩ => Fin.ext (by show (k.val * 100 + j.val) % 100 = j.val; omega)
  have eb : idx_main_v44 (idx_main_v45 (idx_main_v46 (idx_main_v47 (ix2 r j)))) = ix2 (4 : Fin 5) j :=
    funext fun a =>
      match a with
      | ⟨0, _⟩ => rfl
      | ⟨1, _⟩ => Fin.ext (by show j.val % 100 = j.val; omega)
  simp only [el, er, eb]
  rfl

/-- The head: entry `r` of the result is the absolute value of the last contraction on row `r` plus the output bias. The final
    reshape reads entry `(r, 0)` of the column (`r / 1 = r`), and the bias, a single number, is read at `0` through its broadcasts. -/
theorem head_eq (x0 : (⟨S1048576x64, .f32⟩ : BufTy).Contents (Elt Ideal)) (x1 : (⟨S64x100, .f32⟩ : BufTy).Contents (Elt Ideal))
    (x2 : (⟨S100, .f32⟩ : BufTy).Contents (Elt Ideal)) (x3 : (⟨S5x100x100, .f32⟩ : BufTy).Contents (Elt Ideal))
    (x4 : (⟨S5x100, .f32⟩ : BufTy).Contents (Elt Ideal)) (x5 : (⟨S100x1, .f32⟩ : BufTy).Contents (Elt Ideal))
    (x6 : (⟨S1, .f32⟩ : BufTy).Contents (Elt Ideal)) (r : Fin 1048576) :
    val_main_v55 (F := Ideal) x0 x1 x2 x3 x4 x5 x6 (ix1 r)
      = head (fun k => val_main_v49 (F := Ideal) x0 x1 x2 x3 x4 (ix2 r k)) (fun k => x5 (ix2 k (0 : Fin 1)))
          (x6 (ix1 (0 : Fin 1))) := by
  rw [val_main_v55_apply, val_main_v54_apply, val_main_v53_apply, val_main_v50_apply, val_main_v52_apply,
    val_main_v51_apply]
  have el : ∀ k : Fin 100, lidx_main_v50 (idx_main_v54 (ix1 r)) k = ix2 r k := fun k => funext fun a =>
    match a with
    | ⟨0, _⟩ => Fin.ext (by show r.val / 1 = r.val; omega)
    | ⟨1, _⟩ => rfl
  have er : ∀ k : Fin 100, ridx_main_v50 (idx_main_v54 (ix1 r)) k = ix2 k (0 : Fin 1) := fun k => funext fun a =>
    match a with | ⟨0, _⟩ => rfl | ⟨1, _⟩ => rfl
  have eb : idx_main_v51 (idx_main_v52 (idx_main_v54 (ix1 r))) = ix1 (0 : Fin 1) := funext fun a =>
    match a with | ⟨0, _⟩ => rfl
  simp only [el, er, eb]
  rfl

/-- The reference's result, as a function of the arguments, is the network on the whole arrays. -/
theorem result_eq (x0 : (⟨S1048576x64, .f32⟩ : BufTy).Contents (Elt Ideal)) (x1 : (⟨S64x100, .f32⟩ : BufTy).Contents (Elt Ideal))
    (x2 : (⟨S100, .f32⟩ : BufTy).Contents (Elt Ideal)) (x3 : (⟨S5x100x100, .f32⟩ : BufTy).Contents (Elt Ideal))
    (x4 : (⟨S5x100, .f32⟩ : BufTy).Contents (Elt Ideal)) (x5 : (⟨S100x1, .f32⟩ : BufTy).Contents (Elt Ideal))
    (x6 : (⟨S1, .f32⟩ : BufTy).Contents (Elt Ideal)) :
    val_main_v55 (F := Ideal) x0 x1 x2 x3 x4 x5 x6 = mlpOut x0 x1 x2 x3 x4 x5 x6 := by
  funext i
  obtain ⟨r, rfl⟩ : ∃ r : Fin 1048576, i = ix1 r := ⟨i 0, eq_ix1 i⟩
  have e5 : (fun k => val_main_v49 (F := Ideal) x0 x1 x2 x3 x4 (ix2 r k))
      = dense (fun k => val_main_v40 (F := Ideal) x0 x1 x2 x3 x4 (ix2 r k)) (fun k j => x3 (ix3 (4 : Fin 5) k j))
          (fun j => x4 (ix2 (4 : Fin 5) j)) := funext fun k => layer5 x0 x1 x2 x3 x4 r k
  have e4 : (fun k => val_main_v40 (F := Ideal) x0 x1 x2 x3 x4 (ix2 r k))
      = dense (fun k => val_main_v31 (F := Ideal) x0 x1 x2 x3 x4 (ix2 r k)) (fun k j => x3 (ix3 (3 : Fin 5) k j))
          (fun j => x4 (ix2 (3 : Fin 5) j)) := funext fun k => layer4 x0 x1 x2 x3 x4 r k
  have e3 : (fun k => val_main_v31 (F := Ideal) x0 x1 x2 x3 x4 (ix2 r k))
      = dense (fun k => val_main_v22 (F := Ideal) x0 x1 x2 x3 x4 (ix2 r k)) (fun k j => x3 (ix3 (2 : Fin 5) k j))
          (fun j => x4 (ix2 (2 : Fin 5) j)) := funext fun k => layer3 x0 x1 x2 x3 x4 r k
  have e2 : (fun k => val_main_v22 (F := Ideal) x0 x1 x2 x3 x4 (ix2 r k))
      = dense (fun k => val_main_v13 (F := Ideal) x0 x1 x2 x3 x4 (ix2 r k)) (fun k j => x3 (ix3 (1 : Fin 5) k j))
          (fun j => x4 (ix2 (1 : Fin 5) j)) := funext fun k => layer2 x0 x1 x2 x3 x4 r k
  have e1 : (fun k => val_main_v13 (F := Ideal) x0 x1 x2 x3 x4 (ix2 r k))
      = dense (fun k => val_main_v4 (F := Ideal) x0 x1 x2 (ix2 r k)) (fun k j => x3 (ix3 (0 : Fin 5) k j))
          (fun j => x4 (ix2 (0 : Fin 5) j)) := funext fun k => layer1 x0 x1 x2 x3 x4 r k
  have e0 : (fun k => val_main_v4 (F := Ideal) x0 x1 x2 (ix2 r k))
      = dense (fun k => x0 (ix2 r k)) (fun k j => x1 (ix2 k j)) (fun j => x2 (ix1 j)) :=
    funext fun k => layer0 x0 x1 x2 r k
  rw [head_eq, e5, e4, e3, e2, e1, e0, mlpOut_apply]
  rfl

end Cert.ReferenceIdeal.Row

end
-- ==== Proof.lean ====
/-
  The kernel and its reference compute one function.

  Both programs are a six-layer perceptron applied to each of the 1048576 rows of `x` independently: a dense layer
  64 → 100, five dense layers 100 → 100, each clamped at zero, and a head 100 → 1 whose absolute value is the result. The
  kernel narrows its matrix operands to bf16 before every product; over the extended reals a change of format is the identity,
  a product into a zero accumulator is the plain sum over the contracted axis, and the host's `dot_general` is the same sum,
  so no algebraic law beyond reading each operation at an index is needed, and the inputs' finiteness is never used.
  MlpSpec states the function on one row; KernelRow shows a row of the kernel's output block is it; KernelValue carries
  that from the 128 blocks to the whole result array and through the reshapes around the call; RefRow shows each entry of
  the reference's result is it. The kernel's and its idealization's frames are the generated ones, the reference's is its
  generated run with the result dropped, and the idealization rewrote nothing, so there is nothing to preserve.
-/
import proofs.«125592_j26860725469574_1_alg».proof.Defs
import proofs.«125592_j26860725469574_1_alg».proof.Proof.Gen.Kernel
import proofs.«125592_j26860725469574_1_alg».proof.Proof.Gen.Kernel.Skeleton
import proofs.«125592_j26860725469574_1_alg».proof.Proof.Gen.Kernel.Launch
import proofs.«125592_j26860725469574_1_alg».proof.Proof.Gen.Kernel.Points
import proofs.«125592_j26860725469574_1_alg».proof.Proof.Gen.Kernel.Frame
import proofs.«125592_j26860725469574_1_alg».proof.Proof.Gen.KernelIdeal
import proofs.«125592_j26860725469574_1_alg».proof.Proof.Gen.KernelIdeal.Skeleton
import proofs.«125592_j26860725469574_1_alg».proof.Proof.Gen.KernelIdeal.Launch
import proofs.«125592_j26860725469574_1_alg».proof.Proof.Gen.KernelIdeal.Points
import proofs.«125592_j26860725469574_1_alg».proof.Proof.Gen.KernelIdeal.Frame
import proofs.«125592_j26860725469574_1_alg».proof.Proof.Gen.ReferenceIdeal
import proofs.«125592_j26860725469574_1_alg».proof.Proof.Gen.Pre_finite_inputs
import proofs.«125592_j26860725469574_1_alg».proof.Proof.Gen.ReferenceIdeal.Run
import proofs.«125592_j26860725469574_1_alg».proof.Proof.Gen.ReferenceIdeal.Read
import proofs.«125592_j26860725469574_1_alg».proof.Proof.MlpSpec
import proofs.«125592_j26860725469574_1_alg».proof.Proof.KernelRow
import proofs.«125592_j26860725469574_1_alg».proof.Proof.KernelValue
import proofs.«125592_j26860725469574_1_alg».proof.Proof.RefRow
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments both programs end with the network of those arguments in their
    result buffers: the kernel by KernelValue, the reference by its run read row by row. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.Row.result_eq]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
